-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x300x75 : Shape := ⟨3, ![2048, 300, 75]⟩
abbrev S2048x300x6 : Shape := ⟨3, ![2048, 300, 6]⟩
abbrev S_ : Shape := ⟨0, ![]⟩

class Facts : Prop where
  bcast_S_S2048x300x75 : S_.BroadcastsInDim S2048x300x75 (![] : Fin 0 → Fin S2048x300x75.rank)
  reducesTo_S2048x300x75_S_d0_1_2 : S2048x300x75.ReducesTo [0, 1, 2] S_
  h_S_ : 0 < S_.numel
  bcast_S_S2048x300x6 : S_.BroadcastsInDim S2048x300x6 (![] : Fin 0 → Fin S2048x300x6.rank)
  reducesTo_S2048x300x6_S_d0_1_2 : S2048x300x6.ReducesTo [0, 1, 2] S_

variable [Facts]

def fn {F : FTy → Type} [FloatOps F] (main_arg0 : FVec F S2048x300x75 .f32) (main_arg1 : FVec F S2048x300x6 .f32) : IVec S_ 1 :=
  let main_v0 : FVec F S2048x300x75 .f32 := Host.absf main_arg0
  let main_cst : FVec F S_ .f32 := constant S_ .f32 0x7F800000#32
  let main_v1 : FVec F S2048x300x75 .f32 := broadcastInDim S2048x300x75 ![] bcast_S_S2048x300x75 main_cst
  let main_v2 : IVec S2048x300x75 1 := cmpf .olt main_v0 main_v1
  let main_c : IVec S_ 1 := constantI S_ 1 1#1
  let main_v3 : IVec S_ 1 := (fun x v => Host.reduce IntOp.andi x v reducesTo_S2048x300x75_S_d0_1_2 h_S_) main_v2 main_c
  let main_v4 : FVec F S2048x300x6 .f32 := Host.absf main_arg1
  let main_cst_0 : FVec F S_ .f32 := constant S_ .f32 0x7F800000#32
  let main_v5 : FVec F S2048x300x6 .f32 := broadcastInDim S2048x300x6 ![] bcast_S_S2048x300x6 main_cst_0
  let main_v6 : IVec S2048x300x6 1 := cmpf .olt main_v4 main_v5
  let main_c_1 : IVec S_ 1 := constantI S_ 1 1#1
  let main_v7 : IVec S_ 1 := (fun x v => Host.reduce IntOp.andi x v reducesTo_S2048x300x6_S_d0_1_2 h_S_) main_v6 main_c_1
  let main_v8 : IVec S_ 1 := andi main_v3 main_v7
  main_v8
-- ==== Kernel.lean ====
abbrev S2048x300x75 : Shape := ⟨3, ![2048, 300, 75]⟩
abbrev S2048x300x6 : Shape := ⟨3, ![2048, 300, 6]⟩
abbrev S1x75 : Shape := ⟨2, ![1, 75]⟩
abbrev S614400x75 : Shape := ⟨2, ![614400, 75]⟩
abbrev S614400x6 : Shape := ⟨2, ![614400, 6]⟩
abbrev S1024x75 : Shape := ⟨2, ![1024, 75]⟩
abbrev S1024x6 : Shape := ⟨2, ![1024, 6]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S2048x300x75, .f32⟩
  | .hbm, ⟨1, _⟩ => ⟨S2048x300x6, .f32⟩
  | .hbm, ⟨2, _⟩ => ⟨S1x75, .f32⟩
  | .hbm, ⟨3, _⟩ => ⟨S1x75, .f32⟩
  | .hbm, ⟨4, _⟩ => ⟨S1x75, .f32⟩
  | .hbm, ⟨5, _⟩ => ⟨S614400x75, .f32⟩
  | .hbm, ⟨6, _⟩ => ⟨S614400x6, .f32⟩
  | .hbm, ⟨7, _⟩ => ⟨S614400x75, .f32⟩
  | .hbm, ⟨8, _⟩ => ⟨S2048x300x75, .f32⟩
  | .local _ .vmem, ⟨0, _⟩ => ⟨S1x75, .f32⟩
  | .local _ .vmem, ⟨1, _⟩ => ⟨S1x75, .f32⟩
  | .local _ .vmem, ⟨2, _⟩ => ⟨S1x75, .f32⟩
  | .local _ .vmem, ⟨3, _⟩ => ⟨S1024x75, .f32⟩
  | .local _ .vmem, ⟨4, _⟩ => ⟨S1024x75, .f32⟩
  | .local _ .vmem, ⟨5, _⟩ => ⟨S1024x6, .f32⟩
  | .local _ .vmem, ⟨6, _⟩ => ⟨S1024x6, .f32⟩
  | .local _ .vmem, ⟨7, _⟩ => ⟨S1024x75, .f32⟩
  | .local _ .vmem, ⟨8, _⟩ => ⟨S1024x75, .f32⟩
  | _, _ => ⟨S2048x300x75, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![600], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x75 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x75 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x75 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x75 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x75 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x300x75_S614400x75 : S2048x300x75.ShapeCasts S614400x75
  shapeCasts_S2048x300x6_S614400x6 : S2048x300x6.ShapeCasts S614400x6
  inb_S1024x75_S1024x75_0_0 : ∀ a, (![0, 0] : Fin 2 → Nat) a + S1024x75.size a ≤ S1024x75.size a
  h_S1024x75 : 0 < S1024x75.numel
  shapeCasts_S1024x75_S1024x75 : S1024x75.ShapeCasts S1024x75
  inb_S1024x6_S1024x6_0_0 : ∀ a, (![0, 0] : Fin 2 → Nat) a + S1024x6.size a ≤ S1024x6.size a
  h_S1024x6 : 0 < S1024x6.numel
  shapeCasts_S1024x6_S1024x6 : S1024x6.ShapeCasts S1024x6
  inb_S1x75_S1x75_0_0 : ∀ a, (![0, 0] : Fin 2 → Nat) a + S1x75.size a ≤ S1x75.size a
  h_S1x75 : 0 < S1x75.numel
  natLt_1_32 : 1 < 32
  slices_S1024x6_o0_3_S1024x1 : S1024x6.Slices ![0, 3] S1024x1
  slices_S1024x6_o0_4_S1024x1 : S1024x6.Slices ![0, 4] S1024x1
  slices_S1024x6_o0_5_S1024x1 : S1024x6.Slices ![0, 5] S1024x1
  broadcasts_S1024x1_S1024x75 : S1024x1.Broadcasts S1024x75
  broadcasts_S1x75_S1024x75 : S1x75.Broadcasts S1024x75
  slices_S1024x6_o0_0_S1024x1 : S1024x6.Slices ![0, 0] S1024x1
  slices_S1024x6_o0_1_S1024x1 : S1024x6.Slices ![0, 1] S1024x1
  slices_S1024x6_o0_2_S1024x1 : S1024x6.Slices ![0, 2] S1024x1
  rotates_S1024x75_d1 : S1024x75.Rotates 1 none
  shapeCasts_S614400x75_S2048x300x75 : S614400x75.ShapeCasts S2048x300x75
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x75.size a ≤ S1x75.size a
  hwx0_0 : ∀ i : grid0.Coords, EltTy.bits .f32 = 32 ∨ (Rect.block (s := S1x75) S1x75.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x75.size a ≤ S1x75.size a
  hwx0_1 : ∀ i : grid0.Coords, EltTy.bits .f32 = 32 ∨ (Rect.block (s := S1x75) S1x75.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x75.size a ≤ S1x75.size a
  hwx0_2 : ∀ i : grid0.Coords, EltTy.bits .f32 = 32 ∨ (Rect.block (s := S1x75) S1x75.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x75.size a ≤ S614400x75.size a
  hwx0_3 : ∀ i : grid0.Coords, EltTy.bits .f32 = 32 ∨ (Rect.block (s := S614400x75) S1024x75.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x6.size a ≤ S614400x6.size a
  hwx0_4 : ∀ i : grid0.Coords, EltTy.bits .f32 = 32 ∨ (Rect.block (s := S614400x6) S1024x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x75.size a ≤ S614400x75.size a
  hwx0_5 : ∀ i : grid0.Coords, EltTy.bits .f32 = 32 ∨ (Rect.block (s := S614400x75) S1024x75.size (cc0_transform_5 i) (hinb0_5 i)).WholeWords (EltTy.packing .f32)

variable [Facts₀]

abbrev win0_0 : Pipeline.Window sig grid0 :=
  Pipeline.Window.ofSpec (Memref.whole main_cst) S1x75.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_cst_0) S1x75.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_1) S1x75.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x75.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x6.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x75.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x300x75 : Shape := ⟨3, ![2048, 300, 75]⟩
abbrev S2048x300x6 : Shape := ⟨3, ![2048, 300, 6]⟩
abbrev S614400x6 : Shape := ⟨2, ![614400, 6]⟩
abbrev S_ : Shape := ⟨0, ![]⟩
abbrev S614400x75 : Shape := ⟨2, ![614400, 75]⟩
abbrev S614400x25x3 : Shape := ⟨3, ![614400, 25, 3]⟩
abbrev S614400x3x25 : Shape := ⟨3, ![614400, 3, 25]⟩
abbrev S614400x1x25 : Shape := ⟨3, ![614400, 1, 25]⟩
abbrev S614400x4x25 : Shape := ⟨3, ![614400, 4, 25]⟩
abbrev S614400x1 : Shape := ⟨2, ![614400, 1]⟩
abbrev S614400 : Shape := ⟨1, ![614400]⟩
abbrev S614400x4 : Shape := ⟨2, ![614400, 4]⟩
abbrev S614400x1x4 : Shape := ⟨3, ![614400, 1, 4]⟩
abbrev S614400x3x4 : Shape := ⟨3, ![614400, 3, 4]⟩
abbrev S614400x4x4 : Shape := ⟨3, ![614400, 4, 4]⟩
abbrev S614400x25x4 : Shape := ⟨3, ![614400, 25, 4]⟩

abbrev nBuf : Space → Nat
  | .hbm => 160
  | .vmem => 0
  | .smem => 0
  | _ => 0

abbrev hbmTy0_0 (i : Nat) : BufTy := match i % 128 with
  | 0 => ⟨S2048x300x75, .f32⟩
  | 1 => ⟨S2048x300x6, .f32⟩
  | 2 => ⟨S614400x6, .f32⟩
  | 3 => ⟨S_, .f32⟩
  | 4 => ⟨S2048x300x75, .f32⟩
  | 5 => ⟨S2048x300x75, .i1⟩
  | 6 => ⟨S2048x300x75, .f32⟩
  | 7 => ⟨S614400x75, .f32⟩
  | 8 => ⟨S614400x25x3, .f32⟩
  | 9 => ⟨S614400x3x25, .f32⟩
  | 10 => ⟨S_, .f32⟩
  | 11 => ⟨S614400x1x25, .f32⟩
  | 12 => ⟨S614400x4x25, .f32⟩
  | 13 => ⟨S614400x1, .f32⟩
  | 14 => ⟨S614400, .f32⟩
  | 15 => ⟨S614400x1, .f32⟩
  | 16 => ⟨S614400, .f32⟩
  | 17 => ⟨S614400x1, .f32⟩
  | 18 => ⟨S614400, .f32⟩
  | 19 => ⟨S_, .f32⟩
  | 20 => ⟨S614400, .f32⟩
  | 21 => ⟨S_, .f32⟩
  | 22 => ⟨S614400, .f32⟩
  | 23 => ⟨S614400x1, .f32⟩
  | 24 => ⟨S614400x1, .f32⟩
  | 25 => ⟨S614400x1, .f32⟩
  | 26 => ⟨S614400x1, .f32⟩
  | 27 => ⟨S614400x4, .f32⟩
  | 28 => ⟨S614400x1, .f32⟩
  | 29 => ⟨S614400x1, .f32⟩
  | 30 => ⟨S614400x1, .f32⟩
  | 31 => ⟨S614400x1, .f32⟩
  | 32 => ⟨S614400x4, .f32⟩
  | 33 => ⟨S614400x1, .f32⟩
  | 34 => ⟨S614400x1, .f32⟩
  | 35 => ⟨S614400x1, .f32⟩
  | 36 => ⟨S614400x1, .f32⟩
  | 37 => ⟨S614400x4, .f32⟩
  | 38 => ⟨S614400x1x4, .f32⟩
  | 39 => ⟨S614400x1x4, .f32⟩
  | 40 => ⟨S614400x1x4, .f32⟩
  | 41 => ⟨S614400x3x4, .f32⟩
  | 42 => ⟨S614400x3x25, .f32⟩
  | 43 => ⟨S614400x25x3, .f32⟩
  | 44 => ⟨S2048x300x75, .f32⟩
  | 45 => ⟨S2048x300x75, .f32⟩
  | 46 => ⟨S614400x1, .f32⟩
  | 47 => ⟨S614400, .f32⟩
  | 48 => ⟨S614400, .f32⟩
  | 49 => ⟨S614400, .f32⟩
  | 50 => ⟨S_, .f32⟩
  | 51 => ⟨S614400, .f32⟩
  | 52 => ⟨S_, .f32⟩
  | 53 => ⟨S614400, .f32⟩
  | 54 => ⟨S614400, .f32⟩
  | 55 => ⟨S614400x1, .f32⟩
  | 56 => ⟨S614400x1, .f32⟩
  | 57 => ⟨S614400x1, .f32⟩
  | 58 => ⟨S614400x1, .f32⟩
  | 59 => ⟨S614400x4, .f32⟩
  | 60 => ⟨S614400x1, .f32⟩
  | 61 => ⟨S614400x1, .f32⟩
  | 62 => ⟨S614400x1, .f32⟩
  | 63 => ⟨S614400x1, .f32⟩
  | 64 => ⟨S614400x4, .f32⟩
  | 65 => ⟨S614400x1, .f32⟩
  | 66 => ⟨S614400x1, .f32⟩
  | 67 => ⟨S614400x1, .f32⟩
  | 68 => ⟨S614400x1, .f32⟩
  | 69 => ⟨S614400x4, .f32⟩
  | 70 => ⟨S614400x1, .f32⟩
  | 71 => ⟨S614400x1, .f32⟩
  | 72 => ⟨S614400x1, .f32⟩
  | 73 => ⟨S614400x1, .f32⟩
  | 74 => ⟨S614400x4, .f32⟩
  | 75 => ⟨S614400x1x4, .f32⟩
  | 76 => ⟨S614400x1x4, .f32⟩
  | 77 => ⟨S614400x1x4, .f32⟩
  | 78 => ⟨S614400x1x4, .f32⟩
  | 79 => ⟨S614400x4x4, .f32⟩
  | 80 => ⟨S614400x1, .f32⟩
  | 81 => ⟨S614400, .f32⟩
  | 82 => ⟨S614400, .f32⟩
  | 83 => ⟨S614400, .f32⟩
  | 84 => ⟨S_, .f32⟩
  | 85 => ⟨S614400, .f32⟩
  | 86 => ⟨S_, .f32⟩
  | 87 => ⟨S614400, .f32⟩
  | 88 => ⟨S614400x1, .f32⟩
  | 89 => ⟨S614400x1, .f32⟩
  | 90 => ⟨S614400x1, .f32⟩
  | 91 => ⟨S614400x1, .f32⟩
  | 92 => ⟨S614400x4, .f32⟩
  | 93 => ⟨S614400x1, .f32⟩
  | 94 => ⟨S614400x1, .f32⟩
  | 95 => ⟨S614400x1, .f32⟩
  | 96 => ⟨S614400x1, .f32⟩
  | 97 => ⟨S614400x4, .f32⟩
  | 98 => ⟨S614400, .f32⟩
  | 99 => ⟨S614400x1, .f32⟩
  | 100 => ⟨S614400x1, .f32⟩
  | 101 => ⟨S614400x1, .f32⟩
  | 102 => ⟨S614400x1, .f32⟩
  | 103 => ⟨S614400x4, .f32⟩
  | 104 => ⟨S614400x1, .f32⟩
  | 105 => ⟨S614400x1, .f32⟩
  | 106 => ⟨S614400x1, .f32⟩
  | 107 => ⟨S614400x1, .f32⟩
  | 108 => ⟨S614400x4, .f32⟩
  | 109 => ⟨S614400x1x4, .f32⟩
  | 110 => ⟨S614400x1x4, .f32⟩
  | 111 => ⟨S614400x1x4, .f32⟩
  | 112 => ⟨S614400x1x4, .f32⟩
  | 113 => ⟨S614400x4x4, .f32⟩
  | 114 => ⟨S614400x4x4, .f32⟩
  | 115 => ⟨S614400x1, .f32⟩
  | 116 => ⟨S614400, .f32⟩
  | 117 => ⟨S614400, .f32⟩
  | 118 => ⟨S614400, .f32⟩
  | 119 => ⟨S_, .f32⟩
  | 120 => ⟨S614400, .f32⟩
  | 121 => ⟨S_, .f32⟩
  | 122 => ⟨S614400, .f32⟩
  | 123 => ⟨S614400x1, .f32⟩
  | 124 => ⟨S614400x1, .f32⟩
  | 125 => ⟨S614400x1, .f32⟩
  | 126 => ⟨S614400x1, .f32⟩
  | 127 => ⟨S614400x4, .f32⟩
  | _ => ⟨S2048x300x75, .f32⟩

abbrev hbmTy0_1 (i : Nat) : BufTy := match i % 128 with
  | 0 => ⟨S614400, .f32⟩
  | 1 => ⟨S614400x1, .f32⟩
  | 2 => ⟨S614400x1, .f32⟩
  | 3 => ⟨S614400x1, .f32⟩
  | 4 => ⟨S614400x1, .f32⟩
  | 5 => ⟨S614400x4, .f32⟩
  | 6 => ⟨S614400x1, .f32⟩
  | 7 => ⟨S614400x1, .f32⟩
  | 8 => ⟨S614400x1, .f32⟩
  | 9 => ⟨S614400x1, .f32⟩
  | 10 => ⟨S614400x4, .f32⟩
  | 11 => ⟨S614400x1, .f32⟩
  | 12 => ⟨S614400x1, .f32⟩
  | 13 => ⟨S614400x1, .f32⟩
  | 14 => ⟨S614400x1, .f32⟩
  | 15 => ⟨S614400x4, .f32⟩
  | 16 => ⟨S614400x1x4, .f32⟩
  | 17 => ⟨S614400x1x4, .f32⟩
  | 18 => ⟨S614400x1x4, .f32⟩
  | 19 => ⟨S614400x1x4, .f32⟩
  | 20 => ⟨S614400x4x4, .f32⟩
  | 21 => ⟨S614400x4x4, .f32⟩
  | 22 => ⟨S614400x75, .f32⟩
  | 23 => ⟨S614400x25x3, .f32⟩
  | 24 => ⟨S614400x3x25, .f32⟩
  | 25 => ⟨S_, .f32⟩
  | 26 => ⟨S614400x1x25, .f32⟩
  | 27 => ⟨S614400x4x25, .f32⟩
  | 28 => ⟨S614400x4x25, .f32⟩
  | 29 => ⟨S614400x25x4, .f32⟩
  | 30 => ⟨S614400x25x3, .f32⟩
  | 31 => ⟨S2048x300x75, .f32⟩
  | _ => ⟨S2048x300x75, .f32⟩

abbrev hbmTy (i : Nat) : BufTy := match i / 128 with
  | 0 => hbmTy0_0 i
  | 1 => hbmTy0_1 i
  | _ => ⟨S2048x300x75, .f32⟩

abbrev bufTy : (tb : Table) → Fin (tcTables nBuf tb) → BufTy
  | .hbm, ⟨i, _⟩ => hbmTy i
  | _, _ => ⟨S2048x300x75, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_5 : Ref sig .tc := ⟨.hbm, 84, rfl⟩
abbrev main_v76 : Ref sig .tc := ⟨.hbm, 85, rfl⟩
abbrev main_cst_6 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_cst_7 : Ref sig .tc := ⟨.hbm, 119, rfl⟩
abbrev main_v109 : Ref sig .tc := ⟨.hbm, 120, rfl⟩
abbrev main_cst_8 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_cst_9 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩

abbrev nD : Nat := 1
abbrev τ : Topo := Topo.v7x

variable {F : FTy → Type} [FloatOps F]

class Facts₀ : Prop where
  shapeCasts_S2048x300x6_S614400x6 : S2048x300x6.ShapeCasts S614400x6
  bcast_S_S2048x300x75 : S_.BroadcastsInDim S2048x300x75 (![] : Fin 0 → Fin S2048x300x75.rank)
  shapeCasts_S2048x300x75_S614400x75 : S2048x300x75.ShapeCasts S614400x75
  shapeCasts_S614400x75_S614400x25x3 : S614400x75.ShapeCasts S614400x25x3
  transposes_S614400x25x3_S614400x3x25_0_2_1 : S614400x25x3.Transposes [0, 2, 1] S614400x3x25
  bcast_S_S614400x1x25 : S_.BroadcastsInDim S614400x1x25 (![] : Fin 0 → Fin S614400x1x25.rank)
  concatenates_S614400x3x25_S614400x1x25_S614400x4x25_d1 : Shape.Concatenates [S614400x3x25, S614400x1x25] S614400x4x25 1
  slices_S614400x6_S614400x1_0_3 : S614400x6.Slices ![0, 3] S614400x1
  shapeCasts_S614400x1_S614400 : S614400x1.ShapeCasts S614400
  slices_S614400x6_S614400x1_0_4 : S614400x6.Slices ![0, 4] S614400x1
  slices_S614400x6_S614400x1_0_5 : S614400x6.Slices ![0, 5] S614400x1
  bcast_S_S614400 : S_.BroadcastsInDim S614400 (![] : Fin 0 → Fin S614400.rank)
  bcast_S614400_S614400x1_0 : S614400.BroadcastsInDim S614400x1 (![0] : Fin 1 → Fin S614400x1.rank)
  concatenates_S614400x1_S614400x1_S614400x1_S614400x1_S614400x4_d1 : Shape.Concatenates [S614400x1, S614400x1, S614400x1, S614400x1] S614400x4 1
  bcast_S614400x4_S614400x1x4_0_2 : S614400x4.BroadcastsInDim S614400x1x4 (![0, 2] : Fin 2 → Fin S614400x1x4.rank)
  concatenates_S614400x1x4_S614400x1x4_S614400x1x4_S614400x3x4_d1 : Shape.Concatenates [S614400x1x4, S614400x1x4, S614400x1x4] S614400x3x4 1
  transposes_S614400x3x25_S614400x25x3_0_2_1 : S614400x3x25.Transposes [0, 2, 1] S614400x25x3
  shapeCasts_S614400x25x3_S2048x300x75 : S614400x25x3.ShapeCasts S2048x300x75
  slices_S614400x6_S614400x1_0_2 : S614400x6.Slices ![0, 2] S614400x1
  concatenates_S614400x1x4_S614400x1x4_S614400x1x4_S614400x1x4_S614400x4x4_d1 : Shape.Concatenates [S614400x1x4, S614400x1x4, S614400x1x4, S614400x1x4] S614400x4x4 1
  slices_S614400x6_S614400x1_0_0 : S614400x6.Slices ![0, 0] S614400x1
  slices_S614400x6_S614400x1_0_1 : S614400x6.Slices ![0, 1] S614400x1
  transposes_S614400x4x25_S614400x25x4_0_2_1 : S614400x4x25.Transposes [0, 2, 1] S614400x25x4
  slices_S614400x25x4_S614400x25x3_0_0_0 : S614400x25x4.Slices ![0, 0, 0] S614400x25x3
  dot_S614400x3x4_S614400x4x25_S614400x3x25_2_1_1_2_0_0_wf : DotDims.WF S614400x3x4 S614400x4x25 S614400x3x25 [2] [1] [1] [2] [0] [0]
  dot_S614400x4x4_S614400x4x4_S614400x4x4_2_1_1_2_0_0_wf : DotDims.WF S614400x4x4 S614400x4x4 S614400x4x4 [2] [1] [1] [2] [0] [0]
  dot_S614400x4x4_S614400x4x25_S614400x4x25_2_1_1_2_0_0_wf : DotDims.WF S614400x4x4 S614400x4x25 S614400x4x25 [2] [1] [1] [2] [0] [0]

variable [Facts₀]

def dot_S614400x3x4_S614400x4x25_S614400x3x25_2_1_1_2_0_0 : DotDims S614400x3x4 S614400x4x25 S614400x3x25 where
  lhsContracting := [2]
  rhsContracting := [1]
  lhsNonContracting := [1]
  rhsNonContracting := [2]
  lhsBatch := [0]
  rhsBatch := [0]
  wf := dot_S614400x3x4_S614400x4x25_S614400x3x25_2_1_1_2_0_0_wf
def dot_S614400x4x4_S614400x4x4_S614400x4x4_2_1_1_2_0_0 : DotDims S614400x4x4 S614400x4x4 S614400x4x4 where
  lhsContracting := [2]
  rhsContracting := [1]
  lhsNonContracting := [1]
  rhsNonContracting := [2]
  lhsBatch := [0]
  rhsBatch := [0]
  wf := dot_S614400x4x4_S614400x4x4_S614400x4x4_2_1_1_2_0_0_wf
def dot_S614400x4x4_S614400x4x25_S614400x4x25_2_1_1_2_0_0 : DotDims S614400x4x4 S614400x4x25 S614400x4x25 where
  lhsContracting := [2]
  rhsContracting := [1]
  lhsNonContracting := [1]
  rhsNonContracting := [2]
  lhsBatch := [0]
  rhsBatch := [0]
  wf := dot_S614400x4x4_S614400x4x25_S614400x4x25_2_1_1_2_0_0_wf

class Facts : Prop extends Facts₀ where

variable [Facts]
-- ==== Proof.Spec.lean ====
/-
  What both programs compute, row by row, over the reals.

  A row of the first argument holds 25 joints of three coordinates each, interleaved: lane `3k + j` is coordinate `j` of
  joint `k`. A row of the second argument holds three angles (entries 0, 1, 2) and a translation (entries 3, 4, 5).
  Coordinate `j` of every joint is moved by entry `3 + j`, and the moved value is kept only where the original entry is
  not zero (`moved`). Each joint is then turned by the rotation `Rz(θ₂) · Ry(θ₀) · Rx(θ₁)`, whose nine entries are
  `rot`: result coordinate `i` of joint `k` is `∑ j, rot i j · moved k j` (`jointOut`).
  Rows do not interact, so the whole result at `(b, t, l)` is `jointOut` of row `(b, t)` at joint `l / 3`,
  coordinate `l % 3`.
-/
import Idealize.ShloMosaic.Lib.ValueIdx
import Idealize.ShloMosaic.PureOps.Ideal

noncomputable section

namespace Cert.Joints

open Idealize.ShloMosaic Idealize.ShloMosaic.ValueIdx

/-- One at a nonzero entry, zero at a zero entry. -/
def nz (v : ℝ) : ℝ := if v = 0 then 0 else 1

/-- The lane of coordinate `j` of joint `k`. -/
def lane (k : Fin 25) (j : Fin 3) : Fin 75 := ⟨3 * k.val + j.val, by omega⟩

/-- The entry of the parameter row that translates coordinate `j`. -/
def shift (j : Fin 3) : Fin 6 := ⟨3 + j.val, by omega⟩

/-- Coordinate `j` of joint `k` after the translation, kept only where the entry was not zero. -/
def moved (x : Fin 75 → ℝ) (θ : Fin 6 → ℝ) (k : Fin 25) (j : Fin 3) : ℝ :=
  (x (lane k j) + θ (shift j)) * nz (x (lane k j))

/-- The rotation `Rz(θ₂) · Ry(θ₀) · Rx(θ₁)`, entry `(i, j)`. -/
def rot (θ : Fin 6 → ℝ) (i j : Fin 3) : ℝ :=
  match i, j with
  | ⟨0, _⟩, ⟨0, _⟩ => Real.cos (θ 2) * Real.cos (θ 0)
  | ⟨0, _⟩, ⟨1, _⟩ => Real.cos (θ 2) * Real.sin (θ 0) * Real.sin (θ 1) - Real.sin (θ 2) * Real.cos (θ 1)
  | ⟨0, _⟩, ⟨2, _⟩ => Real.cos (θ 2) * Real.sin (θ 0) * Real.cos (θ 1) + Real.sin (θ 2) * Real.sin (θ 1)
  | ⟨1, _⟩, ⟨0, _⟩ => Real.sin (θ 2) * Real.cos (θ 0)
  | ⟨1, _⟩, ⟨1, _⟩ => Real.sin (θ 2) * Real.sin (θ 0) * Real.sin (θ 1) + Real.cos (θ 2) * Real.cos (θ 1)
  | ⟨1, _⟩, ⟨2, _⟩ => Real.sin (θ 2) * Real.sin (θ 0) * Real.cos (θ 1) - Real.cos (θ 2) * Real.sin (θ 1)
  | ⟨2, _⟩, ⟨0, _⟩ => -Real.sin (θ 0)
  | ⟨2, _⟩, ⟨1, _⟩ => Real.cos (θ 0) * Real.sin (θ 1)
  | ⟨2, _⟩, ⟨2, _⟩ => Real.cos (θ 0) * Real.cos (θ 1)

/-- Result coordinate `i` of joint `k`: row `i` of the rotation applied to the joint's three moved coordinates. -/
def jointOut (x : Fin 75 → ℝ) (θ : Fin 6 → ℝ) (k : Fin 25) (i : Fin 3) : ℝ :=
  rot θ i 0 * moved x θ k 0 + rot θ i 1 * moved x θ k 1 + rot θ i 2 * moved x θ k 2

/-- The rotation as the homogeneous 4 × 4 matrix `[R 0; 0 1]`. -/
def rot4 (θ : Fin 6 → ℝ) (i j : Fin 4) : ℝ :=
  if h : i.val < 3 ∧ j.val < 3 then rot θ ⟨i.val, h.1⟩ ⟨j.val, h.2⟩ else if i.val = j.val then 1 else 0

/-- The row that is one on the lanes of coordinate `j` and zero elsewhere. -/
def pat (j : Fin 3) (l : Fin 75) : ℝ := if l.val % 3 = j.val then 1 else 0

/-- The joint a lane belongs to, and its coordinate there. -/
def jointOf (l : Fin 75) : Fin 25 := ⟨l.val / 3, by omega⟩
def coordOf (l : Fin 75) : Fin 3 := ⟨l.val % 3, by omega⟩

theorem jointOf_lane (k : Fin 25) (j : Fin 3) : jointOf (lane k j) = k := Fin.ext (by show (3 * k.val + j.val) / 3 = k.val; omega)
theorem coordOf_lane (k : Fin 25) (j : Fin 3) : coordOf (lane k j) = j := Fin.ext (by show (3 * k.val + j.val) % 3 = j.val; omega)
theorem lane_jointOf_coordOf (l : Fin 75) : lane (jointOf l) (coordOf l) = l :=
  Fin.ext (by show 3 * (l.val / 3) + l.val % 3 = l.val; omega)

/-- The arrays as matrices of rows (the row index is `300 b + t`). -/
abbrev XRows : Shape := ⟨2, ![614400, 75]⟩
abbrev PRows : Shape := ⟨2, ![614400, 6]⟩
/-- The arrays as the programs take and return them. -/
abbrev XArr : Shape := ⟨3, ![2048, 300, 75]⟩
abbrev PArr : Shape := ⟨3, ![2048, 300, 6]⟩

/-- The result over matrices of rows, at row `n` and lane `l`. -/
def rowsAt (X : XRows.Idx → ℝ) (Θ : PRows.Idx → ℝ) (n : Fin 614400) (l : Fin 75) : ℝ :=
  jointOut (fun l' => X (ix2 n l')) (fun q => Θ (ix2 n q)) (jointOf l) (coordOf l)

/-- The result as a matrix of rows. -/
def rows (X : XRows.Idx → ℝ) (Θ : PRows.Idx → ℝ) : XRows.Idx → ℝ := fun j => rowsAt X Θ (j 0) (j 1)

theorem rows_ix2 (X : XRows.Idx → ℝ) (Θ : PRows.Idx → ℝ) (n : Fin 614400) (l : Fin 75) :
    rows X Θ (ix2 n l) = rowsAt X Θ n l := rfl

/-- The result over the arrays as given, at `(b, t, l)`. -/
def wholeAt (x : XArr.Idx → ℝ) (θ : PArr.Idx → ℝ) (b : Fin 2048) (t : Fin 300) (l : Fin 75) : ℝ :=
  jointOut (fun l' => x (ix3 b t l')) (fun q => θ (ix3 b t q)) (jointOf l) (coordOf l)

/-- The result as an array. -/
def whole (x : XArr.Idx → ℝ) (θ : PArr.Idx → ℝ) : XArr.Idx → ℝ := fun i => wholeAt x θ (i 0) (i 1) (i 2)

theorem whole_ix3 (x : XArr.Idx → ℝ) (θ : PArr.Idx → ℝ) (b : Fin 2048) (t : Fin 300) (l : Fin 75) :
    whole x θ (ix3 b t l) = wholeAt x θ b t l := rfl

/-- Row `300 b + t` of the matrices is row `(b, t)` of the arrays: if the matrices' rows are the arrays' rows, the two
    readings of the result agree. -/
theorem rowsAt_eq_wholeAt (X : XRows.Idx → ℝ) (Θ : PRows.Idx → ℝ) (x : XArr.Idx → ℝ) (θ : PArr.Idx → ℝ)
    (n : Fin 614400) (b : Fin 2048) (t : Fin 300)
    (hX : ∀ l : Fin 75, X (ix2 n l) = x (ix3 b t l)) (hΘ : ∀ q : Fin 6, Θ (ix2 n q) = θ (ix3 b t q)) (l : Fin 75) :
    rowsAt X Θ n l = wholeAt x θ b t l := by
  unfold rowsAt wholeAt
  rw [funext hX, funext hΘ]

end Cert.Joints

end
-- ==== Proof.Finite.lean ====
/-
  The precondition read: it says that the absolute value of every entry of both arguments is below plus infinity, so
  where it holds no entry is an infinity and every entry is a real number.
-/
import proofs.«427264_j2113123910298_3_alg».proof.Pre_finite_inputs
import proofs.«427264_j2113123910298_3_alg».proof.Proof.Gen.Pre_finite_inputs
import proofs.«427264_j2113123910298_3_alg».proof.Proof.Spec
import Idealize.ShloMosaic.Lib.ValueIdx
import Idealize.ShloMosaic.Lib.ReduceAll
import Idealize.ShloMosaic.Lib.Affine
import Idealize.ShloMosaic.PureOps.Ideal.Laws

noncomputable section

namespace Cert.Finite

open Idealize.ShloMosaic Idealize.ShloMosaic.ValueIdx Cert.Joints

instance : Subsingleton Cert.Pre_finite_inputs.S_.Idx := ⟨fun a b => funext fun d => d.elim0⟩

/-- The word of plus infinity denotes the top element. -/
theorem ofBits_inf : Ideal.ofBits .f32 0x7F800000#32 = (⊤ : EReal) := by
  simp [Ideal.ofBits, Ideal.ieee]

/-- An extended real whose absolute value is below plus infinity is a real number. -/
theorem real_of_abs_lt (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  have h' : Ideal.cmp .olt (max a (-a)) (⊤ : EReal) = 1#1 := by
    rw [← ofBits_inf]; exact h
  unfold Ideal.cmp at h'
  have hlt : max a (-a) < ⊤ := by
    by_contra hn
    simp [hn] at h'
  have h1 : a < ⊤ := lt_of_le_of_lt (le_max_left _ _) hlt
  have h2 : -a < ⊤ := lt_of_le_of_lt (le_max_right _ _) hlt
  induction a using EReal.rec with
  | bot => simp at h2
  | coe r => exact ⟨r, rfl⟩
  | top => simp at h1

theorem real_of_pre (x0 : FVec Ideal Cert.Pre_finite_inputs.S2048x300x75 .f32) (x1 : FVec Ideal Cert.Pre_finite_inputs.S2048x300x6 .f32)
    (h : Cert.Pre_finite_inputs.fn (F := Ideal) x0 x1 = fun _ => 1#1) :
    (∃ x : XArr.Idx → ℝ, x0 = fun i => ((x i : ℝ) : EReal)) ∧ (∃ θ : PArr.Idx → ℝ, x1 = fun i => ((θ i : ℝ) : EReal)) := by
  have h0 := congrFun h ix0
  unfold Cert.Pre_finite_inputs.fn at h0
  dsimp only at h0
  obtain ⟨ha, hb⟩ := IntOp.andi_eq_one.1 h0
  have ea := fun i => Host.reduce_andi_all _ _ _ _ ix0 ha i
  have eb := fun i => Host.reduce_andi_all _ _ _ _ ix0 hb i
  constructor
  · have hr : ∀ i, ∃ r : ℝ, x0 i = (r : EReal) := fun i => real_of_abs_lt (x0 i) (ea i)
    choose x hx using hr
    exact ⟨x, funext hx⟩
  · have hr : ∀ i, ∃ r : ℝ, x1 i = (r : EReal) := fun i => real_of_abs_lt (x1 i) (eb i)
    choose θ hθ using hr
    exact ⟨θ, funext hθ⟩

end Cert.Finite

end
-- ==== Proof.LibRealCoe.lean ====
/-
  Extended reals that are real numbers, under the exact operations: cosine and sine of a real are real, and the two ways
  a program turns "this entry is not zero" into a number — an ordered or an unordered comparison with zero, the one-bit
  answer widened and read as a signed integer, or read directly as an unsigned one — both give one at a nonzero real
  and zero at zero.
-/
import Idealize.ShloMosaic.PureOps.Ideal
import Idealize.ShloMosaic.PureOps.Ideal.Laws
import Idealize.ShloMosaic.Lib.IdealHost

noncomputable section

namespace Cert.RealCoe

open Idealize.ShloMosaic

/-- One at a nonzero real, zero at zero. -/
def ind (v : ℝ) : ℝ := if v = 0 then 0 else 1

theorem cos_coe (a : ℝ) : Ideal.cos (a : EReal) = ((Real.cos a : ℝ) : EReal) := rfl
theorem sin_coe (a : ℝ) : Ideal.sin (a : EReal) = ((Real.sin a : ℝ) : EReal) := rfl

/-- The ordered "not equal" against zero, widened to 32 bits and read as a signed integer. -/
theorem sitofp_extui_one (v : ℝ) (h : 1 < 32) :
    FloatOps.sitofp (F := Ideal) .f32 ((FloatOps.cmpf (F := Ideal) (φ := .f32) .one (v : EReal) (Ideal.ofBits .f32 0x00000000#32)).setWidth 32)
      = ((ind v : ℝ) : EReal) := by
  show (((BitVec.setWidth 32 (Ideal.cmp .one (v : EReal) (Ideal.ofBits .f32 0x00000000#32))).toInt : ℝ) : EReal) = _
  rw [Ideal.ofBits_zero_f32]
  unfold Ideal.cmp ind
  by_cases hv : v = 0
  · subst hv; simp
  · have : ((v : EReal) ≠ 0) := by exact_mod_cast hv
    simp [hv, this]

/-- The unordered "not equal" against zero, read as an unsigned integer. -/
theorem uitofp_une (v : ℝ) :
    FloatOps.uitofp (F := Ideal) .f32 (FloatOps.cmpf (F := Ideal) (φ := .f32) .une (v : EReal) (Ideal.ofBits .f32 0x00000000#32))
      = ((ind v : ℝ) : EReal) := by
  show ((((Ideal.cmp .une (v : EReal) (Ideal.ofBits .f32 0x00000000#32))).toNat : ℝ) : EReal) = _
  rw [Ideal.ofBits_zero_f32]
  unfold Ideal.cmp ind
  by_cases hv : v = 0
  · subst hv; simp
  · have : ((v : EReal) ≠ 0) := by exact_mod_cast hv
    simp [hv, this]

end Cert.RealCoe

end
-- ==== Proof.KernelPay.lean ====
/-
  One block of the kernel, read at an entry. Given the three pattern rows (one on the lanes of coordinate 0, 1, 2), a
  block of 1024 rows of joints and the block of their 1024 parameter rows, all real, the block the body stores holds at
  row `r`, lane `l` the rotated, translated, masked coordinate `jointOut` of row `r` at the joint and coordinate of `l`.

  The road. Every value the body forms is a real number, so each is read at an entry as a coerced real: the six cosines
  and sines of the three angle columns, the nine entries of the rotation, and the translated, masked row `maskedR` (the
  translation written through the pattern rows, so it holds at every lane). The body regroups the interleaved row with
  four rotations of the lanes: at lane `l` it reads the lanes one and two places back and forward, each under a pattern
  row. Over the reals (`regroup_real`), at the lane of coordinate `i` of joint `k` only pattern row `i` is one, the reads
  it keeps land on the joint's three lanes, where the masked row is the moved coordinate, and every other read is
  multiplied by a zero pattern entry; what remains is row `i` of the rotation applied to the joint's moved coordinates.
-/
import proofs.«427264_j2113123910298_3_alg».proof.Proof.Gen.KernelIdeal.Frame
import proofs.«427264_j2113123910298_3_alg».proof.Proof.Spec
import proofs.«427264_j2113123910298_3_alg».proof.Proof.LibRealCoe
import Idealize.ShloMosaic.Lib.ValueIdx
import Idealize.ShloMosaic.Lib.Pipeline.Value
import Idealize.ShloMosaic.Lib.KernelVsHost

noncomputable section

namespace Cert.KernelIdeal.Pay

open Cert.KernelIdeal Cert.KernelIdeal.Gen Idealize.ShloMosaic Idealize.ShloMosaic.TcCoe Idealize.ShloMosaic.ValueIdx Cert.Joints

/-! ## Layout reads at an entry -/

/-- A column of the parameter block: the slice at offset `(0, k)` of width one, read at row `r`, is entry `(r, k)`. -/
theorem slice_col (T : Vec Ideal S1024x6 .f32) (off : Fin S1024x6.rank → Nat) (h : S1024x6.Slices off S1024x1) (k : Fin 6)
    (h0 : off 0 = 0) (h1 : off 1 = k.val) (r : Fin 1024) :
    extractStridedSlice S1024x1 off (k0_pay2 T) h (ix2 r (0 : Fin 1)) = T (ix2 r k) := by
  unfold k0_pay2
  rw [shapeCast_self]
  refine extractStridedSlice_apply off T h _ (ix2 r k) fun a => ?_
  match a with
  | ⟨0, _⟩ => show r.val = off 0 + r.val; rw [h0]; omega
  | ⟨1, _⟩ => show k.val = off 1 + 0; rw [h1]; rfl

/-- A column spread over the 75 lanes reads, at `(r, l)`, the column's entry of row `r`. -/
theorem bcol {α : Type} (v : S1024x1.Idx → α) (h : S1024x1.Broadcasts S1024x75) (r : Fin 1024) (l : Fin 75) :
    broadcastTo S1024x75 v h (ix2 r l) = v (ix2 r (0 : Fin 1)) := by
  refine broadcastTo_apply v h (ix2 r l) (ix2 r (0 : Fin 1)) fun a => ?_
  match a with
  | ⟨0, _⟩ => rfl
  | ⟨1, _⟩ => rfl

/-- A row spread over the 1024 rows reads, at `(r, l)`, the row's entry of lane `l`. -/
theorem brow {α : Type} (v : S1x75.Idx → α) (h : S1x75.Broadcasts S1024x75) (r : Fin 1024) (l : Fin 75) :
    broadcastTo S1024x75 v h (ix2 r l) = v (ix2 (0 : Fin 1) l) := by
  refine broadcastTo_apply v h (ix2 r l) (ix2 (0 : Fin 1) l) fun a => ?_
  match a with
  | ⟨0, _⟩ => rfl
  | ⟨1, _⟩ => rfl

/-- A rotation of the lanes by `s` reads, at `(r, l)`, the entry of row `r` at the lane `s` places back, around the end. -/
theorem rot_at {α : Type} (v : S1024x75.Idx → α) (s : BitVec 32) (h : S1024x75.Rotates 1 none) (r : Fin 1024) (l l' : Fin 75)
    (hl : l'.val = (l.val + 75 - s.toNat % 75) % 75) :
    dynamicRotate 1 s none v h (ix2 r l) = v (ix2 r l') := by
  refine dynamicRotate_apply 1 s v h (ix2 r l) (ix2 r l') fun b => ?_
  match b with
  | ⟨0, _⟩ => rfl
  | ⟨1, _⟩ => exact hl

/-! ## The parameter block's columns, their cosines and sines, and the rotation's entries -/

section Columns

theorem col0 (T : Vec Ideal S1024x6 .f32) (r : Fin 1024) : k0_pay4 T (ix2 r (0 : Fin 1)) = T (ix2 r 0) := by
  unfold k0_pay4; exact slice_col T _ _ 0 rfl rfl r
theorem col1 (T : Vec Ideal S1024x6 .f32) (r : Fin 1024) : k0_pay5 T (ix2 r (0 : Fin 1)) = T (ix2 r 1) := by
  unfold k0_pay5; exact slice_col T _ _ 1 rfl rfl r
theorem col2 (T : Vec Ideal S1024x6 .f32) (r : Fin 1024) : k0_pay6 T (ix2 r (0 : Fin 1)) = T (ix2 r 2) := by
  unfold k0_pay6; exact slice_col T _ _ 2 rfl rfl r

variable (Θ : S1024x6.Idx → ℝ) (r : Fin 1024)

/-- The parameter row of row `r`. -/
abbrev prow : Fin 6 → ℝ := fun q => Θ (ix2 r q)

theorem cosx_at : k0_pay7 (F := Ideal) (fun j => ((Θ j : ℝ) : EReal)) (ix2 r (0 : Fin 1)) = ((Real.cos (Θ (ix2 r 1)) : ℝ) : EReal) := by
  show FloatOps.cos (F := Ideal) (k0_pay5 (F := Ideal) _ _) = _
  rw [col1]; exact Cert.RealCoe.cos_coe _
theorem sinx_at : k0_pay8 (F := Ideal) (fun j => ((Θ j : ℝ) : EReal)) (ix2 r (0 : Fin 1)) = ((Real.sin (Θ (ix2 r 1)) : ℝ) : EReal) := by
  show FloatOps.sin (F := Ideal) (k0_pay5 (F := Ideal) _ _) = _
  rw [col1]; exact Cert.RealCoe.sin_coe _
theorem cosy_at : k0_pay9 (F := Ideal) (fun j => ((Θ j : ℝ) : EReal)) (ix2 r (0 : Fin 1)) = ((Real.cos (Θ (ix2 r 0)) : ℝ) : EReal) := by
  show FloatOps.cos (F := Ideal) (k0_pay4 (F := Ideal) _ _) = _
  rw [col0]; exact Cert.RealCoe.cos_coe _
theorem siny_at : k0_pay10 (F := Ideal) (fun j => ((Θ j : ℝ) : EReal)) (ix2 r (0 : Fin 1)) = ((Real.sin (Θ (ix2 r 0)) : ℝ) : EReal) := by
  show FloatOps.sin (F := Ideal) (k0_pay4 (F := Ideal) _ _) = _
  rw [col0]; exact Cert.RealCoe.sin_coe _
theorem cosz_at : k0_pay11 (F := Ideal) (fun j => ((Θ j : ℝ) : EReal)) (ix2 r (0 : Fin 1)) = ((Real.cos (Θ (ix2 r 2)) : ℝ) : EReal) := by
  show FloatOps.cos (F := Ideal) (k0_pay6 (F := Ideal) _ _) = _
  rw [col2]; exact Cert.RealCoe.cos_coe _
theorem sinz_at : k0_pay12 (F := Ideal) (fun j => ((Θ j : ℝ) : EReal)) (ix2 r (0 : Fin 1)) = ((Real.sin (Θ (ix2 r 2)) : ℝ) : EReal) := by
  show FloatOps.sin (F := Ideal) (k0_pay6 (F := Ideal) _ _) = _
  rw [col2]; exact Cert.RealCoe.sin_coe _

theorem r00_at : k0_pay13 (F := Ideal) (fun j => ((Θ j : ℝ) : EReal)) (ix2 r (0 : Fin 1)) = ((rot (prow Θ r) 0 0 : ℝ) : EReal) := by
  show k0_pay11 (F := Ideal) _ _ * k0_pay9 (F := Ideal) _ _ = _
  rw [cosz_at, cosy_at, ← EReal.coe_mul]
  rfl
theorem r01_at : k0_pay14 (F := Ideal) (fun j => ((Θ j : ℝ) : EReal)) (ix2 r (0 : Fin 1)) = ((rot (prow Θ r) 0 1 : ℝ) : EReal) := by
  show k0_pay11 (F := Ideal) _ _ * k0_pay10 (F := Ideal) _ _ * k0_pay8 (F := Ideal) _ _ - k0_pay12 (F := Ideal) _ _ * k0_pay7 (F := Ideal) _ _ = _
  rw [cosz_at, siny_at, sinx_at, sinz_at, cosx_at, ← EReal.coe_mul, ← EReal.coe_mul, ← EReal.coe_mul, ← EReal.coe_sub]
  rfl
theorem r02_at : k0_pay15 (F := Ideal) (fun j => ((Θ j : ℝ) : EReal)) (ix2 r (0 : Fin 1)) = ((rot (prow Θ r) 0 2 : ℝ) : EReal) := by
  show k0_pay11 (F := Ideal) _ _ * k0_pay10 (F := Ideal) _ _ * k0_pay7 (F := Ideal) _ _ + k0_pay12 (F := Ideal) _ _ * k0_pay8 (F := Ideal) _ _ = _
  rw [cosz_at, siny_at, sinx_at, sinz_at, cosx_at, ← EReal.coe_mul, ← EReal.coe_mul, ← EReal.coe_mul, ← EReal.coe_add]
  rfl
theorem r10_at : k0_pay16 (F := Ideal) (fun j => ((Θ j : ℝ) : EReal)) (ix2 r (0 : Fin 1)) = ((rot (prow Θ r) 1 0 : ℝ) : EReal) := by
  show k0_pay12 (F := Ideal) _ _ * k0_pay9 (F := Ideal) _ _ = _
  rw [sinz_at, cosy_at, ← EReal.coe_mul]
  rfl

end Columns

section Columns2
variable (Θ : S1024x6.Idx → ℝ) (r : Fin 1024)

theorem p17_at : k0_pay17 (F := Ideal) (fun j => ((Θ j : ℝ) : EReal)) (ix2 r (0 : Fin 1))
    = ((Real.sin (Θ (ix2 r 2)) * Real.sin (Θ (ix2 r 0)) * Real.sin (Θ (ix2 r 1)) : ℝ) : EReal) := by
  show k0_pay12 (F := Ideal) _ _ * k0_pay10 (F := Ideal) _ _ * k0_pay8 (F := Ideal) _ _ = _
  rw [sinz_at, siny_at, sinx_at, ← EReal.coe_mul, ← EReal.coe_mul]
theorem r12_at : k0_pay18 (F := Ideal) (k0_pay7 (fun j => ((Θ j : ℝ) : EReal))) (k0_pay8 (fun j => ((Θ j : ℝ) : EReal)))
      (k0_pay10 (fun j => ((Θ j : ℝ) : EReal))) (k0_pay11 (fun j => ((Θ j : ℝ) : EReal))) (k0_pay12 (fun j => ((Θ j : ℝ) : EReal)))
      (ix2 r (0 : Fin 1)) = ((rot (prow Θ r) 1 2 : ℝ) : EReal) := by
  show k0_pay12 (F := Ideal) _ _ * k0_pay10 (F := Ideal) _ _ * k0_pay7 (F := Ideal) _ _ - k0_pay11 (F := Ideal) _ _ * k0_pay8 (F := Ideal) _ _ = _
  rw [sinz_at, siny_at, cosx_at, cosz_at, sinx_at, ← EReal.coe_mul, ← EReal.coe_mul, ← EReal.coe_mul, ← EReal.coe_sub]
  rfl
theorem r21_at : k0_pay19 (F := Ideal) (k0_pay8 (fun j => ((Θ j : ℝ) : EReal))) (k0_pay9 (fun j => ((Θ j : ℝ) : EReal)))
      (ix2 r (0 : Fin 1)) = ((rot (prow Θ r) 2 1 : ℝ) : EReal) := by
  show k0_pay9 (F := Ideal) _ _ * k0_pay8 (F := Ideal) _ _ = _
  rw [cosy_at, sinx_at, ← EReal.coe_mul]
  rfl
theorem r22_at : k0_pay20 (F := Ideal) (k0_pay7 (fun j => ((Θ j : ℝ) : EReal))) (k0_pay9 (fun j => ((Θ j : ℝ) : EReal)))
      (ix2 r (0 : Fin 1)) = ((rot (prow Θ r) 2 2 : ℝ) : EReal) := by
  show k0_pay9 (F := Ideal) _ _ * k0_pay7 (F := Ideal) _ _ = _
  rw [cosy_at, cosx_at, ← EReal.coe_mul]
  rfl

end Columns2

/-! ## The translated, masked block -/

theorem col3 (T : Vec Ideal S1024x6 .f32) (h : S1024x6.Slices ![0, 3] S1024x1) (r : Fin 1024) :
    extractStridedSlice S1024x1 ![0, 3] (k0_pay2 T) h (ix2 r (0 : Fin 1)) = T (ix2 r 3) := slice_col T _ h 3 rfl rfl r
theorem col4 (T : Vec Ideal S1024x6 .f32) (h : S1024x6.Slices ![0, 4] S1024x1) (r : Fin 1024) :
    extractStridedSlice S1024x1 ![0, 4] (k0_pay2 T) h (ix2 r (0 : Fin 1)) = T (ix2 r 4) := slice_col T _ h 4 rfl rfl r
theorem col5 (T : Vec Ideal S1024x6 .f32) (h : S1024x6.Slices ![0, 5] S1024x1) (r : Fin 1024) :
    extractStridedSlice S1024x1 ![0, 5] (k0_pay2 T) h (ix2 r (0 : Fin 1)) = T (ix2 r 5) := slice_col T _ h 5 rfl rfl r

/-- Row `r`, lane `l` after the translation and the mask, with the translation written through the three pattern rows. -/
def maskedR (X : S1024x75.Idx → ℝ) (Θ : S1024x6.Idx → ℝ) (r : Fin 1024) (l : Fin 75) : ℝ :=
  (X (ix2 r l) + Θ (ix2 r 3) * pat 0 l + Θ (ix2 r 4) * pat 1 l + Θ (ix2 r 5) * pat 2 l) * nz (X (ix2 r l))

theorem masked_at (x0 x1 x2 : Vec Ideal S1x75 .f32) (X : S1024x75.Idx → ℝ) (Θ : S1024x6.Idx → ℝ)
    (h0 : ∀ l : Fin 75, x0 (ix2 (0 : Fin 1) l) = ((pat 0 l : ℝ) : EReal))
    (h1 : ∀ l : Fin 75, x1 (ix2 (0 : Fin 1) l) = ((pat 1 l : ℝ) : EReal))
    (h2 : ∀ l : Fin 75, x2 (ix2 (0 : Fin 1) l) = ((pat 2 l : ℝ) : EReal))
    (r : Fin 1024) (l : Fin 75) :
    k0_pay3 (F := Ideal) (fun j => ((X j : ℝ) : EReal)) (fun j => ((Θ j : ℝ) : EReal)) x0 x1 x2 (ix2 r l)
      = ((maskedR X Θ r l : ℝ) : EReal) := by
  unfold k0_pay3
  simp only [mulf_apply, addf_apply, bcol, brow, shapeCast_self, sitofp_apply, extui_apply, cmpf_apply, broadcast_apply,
    col3, col4, col5, h0, h1, h2]
  refine (congrArg (_ * ·) (Cert.RealCoe.sitofp_extui_one (X (ix2 r l)) (by decide))).trans ?_
  simp only [← EReal.coe_mul, ← EReal.coe_add]
  rfl

/-! ## Lanes: the pattern rows, the rotated reads and the masked row at the lanes of a joint -/

/-- The lane `n` places back from `l`, around the end. -/
def back (n : Nat) (l : Fin 75) : Fin 75 := ⟨(l.val + 75 - n % 75) % 75, Nat.mod_lt _ (by decide)⟩

theorem pat_lane (j : Fin 3) (k : Fin 25) (i : Fin 3) : pat j (lane k i) = if i = j then 1 else 0 := by
  unfold pat lane
  have e : (3 * k.val + i.val) % 3 = i.val := by omega
  show (if (3 * k.val + i.val) % 3 = j.val then (1 : ℝ) else 0) = _
  rw [e]
  by_cases h : i = j
  · rw [if_pos h, if_pos (congrArg Fin.val h)]
  · rw [if_neg h, if_neg (fun hv => h (Fin.ext hv))]

theorem back74_lane0 (k : Fin 25) : back 74 (lane k 0) = lane k 1 := Fin.ext (by show (3 * k.val + 0 + 75 - 74 % 75) % 75 = 3 * k.val + 1; omega)
theorem back73_lane0 (k : Fin 25) : back 73 (lane k 0) = lane k 2 := Fin.ext (by show (3 * k.val + 0 + 75 - 73 % 75) % 75 = 3 * k.val + 2; omega)
theorem back1_lane1 (k : Fin 25) : back 1 (lane k 1) = lane k 0 := Fin.ext (by show (3 * k.val + 1 + 75 - 1 % 75) % 75 = 3 * k.val + 0; omega)
theorem back74_lane1 (k : Fin 25) : back 74 (lane k 1) = lane k 2 := Fin.ext (by show (3 * k.val + 1 + 75 - 74 % 75) % 75 = 3 * k.val + 2; omega)
theorem back1_lane2 (k : Fin 25) : back 1 (lane k 2) = lane k 1 := Fin.ext (by show (3 * k.val + 2 + 75 - 1 % 75) % 75 = 3 * k.val + 1; omega)
theorem back2_lane2 (k : Fin 25) : back 2 (lane k 2) = lane k 0 := Fin.ext (by show (3 * k.val + 2 + 75 - 2 % 75) % 75 = 3 * k.val + 0; omega)

/-- At the lane of coordinate `j` of joint `k` the masked row holds the moved coordinate. -/
theorem maskedR_lane (X : S1024x75.Idx → ℝ) (Θ : S1024x6.Idx → ℝ) (r : Fin 1024) (k : Fin 25) (j : Fin 3) :
    maskedR X Θ r (lane k j) = moved (fun l' => X (ix2 r l')) (fun q => Θ (ix2 r q)) k j := by
  unfold maskedR moved
  rw [pat_lane, pat_lane, pat_lane]
  match j with
  | ⟨0, _⟩ => simp [shift]
  | ⟨1, _⟩ => simp [shift]
  | ⟨2, _⟩ => simp [shift]

/-- The regrouping over the reals: at every lane, the three coefficient rows times the three regrouped rows sum to the
    rotated joint coordinate of that lane. At a lane of coordinate `i` only pattern row `i` is one; the rotated reads it
    keeps are the joint's other two lanes, and the reads it drops carry a zero pattern entry. -/
theorem regroup_real (M : Fin 75 → ℝ) (x : Fin 75 → ℝ) (θ : Fin 6 → ℝ) (hM : ∀ k j, M (lane k j) = moved x θ k j) (l : Fin 75) :
    (rot θ 0 0 * pat 0 l + rot θ 1 0 * pat 1 l + rot θ 2 0 * pat 2 l)
        * (M l * pat 0 l + M (back 1 l) * pat 1 l + M (back 2 l) * pat 2 l)
      + (rot θ 0 1 * pat 0 l + rot θ 1 1 * pat 1 l + rot θ 2 1 * pat 2 l)
        * (M (back 74 l) * pat 0 l + M l * pat 1 l + M (back 1 l) * pat 2 l)
      + (rot θ 0 2 * pat 0 l + rot θ 1 2 * pat 1 l + rot θ 2 2 * pat 2 l)
        * (M (back 73 l) * pat 0 l + M (back 74 l) * pat 1 l + M l * pat 2 l)
      = jointOut x θ (jointOf l) (coordOf l) := by
  have hl := lane_jointOf_coordOf l
  generalize jointOf l = k at hl ⊢
  generalize coordOf l = i at hl ⊢
  subst hl
  unfold jointOut
  match i with
  | ⟨0, _⟩ =>
    show _ = rot θ 0 0 * moved x θ k 0 + rot θ 0 1 * moved x θ k 1 + rot θ 0 2 * moved x θ k 2
    have e0 : pat 0 (lane k 0) = 1 := by rw [pat_lane]; rfl
    have e1 : pat 1 (lane k 0) = 0 := by rw [pat_lane]; rfl
    have e2 : pat 2 (lane k 0) = 0 := by rw [pat_lane]; rfl
    show (rot θ 0 0 * pat 0 (lane k 0) + rot θ 1 0 * pat 1 (lane k 0) + rot θ 2 0 * pat 2 (lane k 0))
        * (M (lane k 0) * pat 0 (lane k 0) + M (back 1 (lane k 0)) * pat 1 (lane k 0) + M (back 2 (lane k 0)) * pat 2 (lane k 0))
      + (rot θ 0 1 * pat 0 (lane k 0) + rot θ 1 1 * pat 1 (lane k 0) + rot θ 2 1 * pat 2 (lane k 0))
        * (M (back 74 (lane k 0)) * pat 0 (lane k 0) + M (lane k 0) * pat 1 (lane k 0) + M (back 1 (lane k 0)) * pat 2 (lane k 0))
      + (rot θ 0 2 * pat 0 (lane k 0) + rot θ 1 2 * pat 1 (lane k 0) + rot θ 2 2 * pat 2 (lane k 0))
        * (M (back 73 (lane k 0)) * pat 0 (lane k 0) + M (back 74 (lane k 0)) * pat 1 (lane k 0) + M (lane k 0) * pat 2 (lane k 0)) = _
    rw [e0, e1, e2, back74_lane0, back73_lane0, hM, hM, hM]
    ring
  | ⟨1, _⟩ =>
    show _ = rot θ 1 0 * moved x θ k 0 + rot θ 1 1 * moved x θ k 1 + rot θ 1 2 * moved x θ k 2
    have e0 : pat 0 (lane k 1) = 0 := by rw [pat_lane]; rfl
    have e1 : pat 1 (lane k 1) = 1 := by rw [pat_lane]; rfl
    have e2 : pat 2 (lane k 1) = 0 := by rw [pat_lane]; rfl
    show (rot θ 0 0 * pat 0 (lane k 1) + rot θ 1 0 * pat 1 (lane k 1) + rot θ 2 0 * pat 2 (lane k 1))
        * (M (lane k 1) * pat 0 (lane k 1) + M (back 1 (lane k 1)) * pat 1 (lane k 1) + M (back 2 (lane k 1)) * pat 2 (lane k 1))
      + (rot θ 0 1 * pat 0 (lane k 1) + rot θ 1 1 * pat 1 (lane k 1) + rot θ 2 1 * pat 2 (lane k 1))
        * (M (back 74 (lane k 1)) * pat 0 (lane k 1) + M (lane k 1) * pat 1 (lane k 1) + M (back 1 (lane k 1)) * pat 2 (lane k 1))
      + (rot θ 0 2 * pat 0 (lane k 1) + rot θ 1 2 * pat 1 (lane k 1) + rot θ 2 2 * pat 2 (lane k 1))
        * (M (back 73 (lane k 1)) * pat 0 (lane k 1) + M (back 74 (lane k 1)) * pat 1 (lane k 1) + M (lane k 1) * pat 2 (lane k 1)) = _
    rw [e0, e1, e2, back1_lane1, back74_lane1, hM, hM, hM]
    ring
  | ⟨2, _⟩ =>
    show _ = rot θ 2 0 * moved x θ k 0 + rot θ 2 1 * moved x θ k 1 + rot θ 2 2 * moved x θ k 2
    have e0 : pat 0 (lane k 2) = 0 := by rw [pat_lane]; rfl
    have e1 : pat 1 (lane k 2) = 0 := by rw [pat_lane]; rfl
    have e2 : pat 2 (lane k 2) = 1 := by rw [pat_lane]; rfl
    show (rot θ 0 0 * pat 0 (lane k 2) + rot θ 1 0 * pat 1 (lane k 2) + rot θ 2 0 * pat 2 (lane k 2))
        * (M (lane k 2) * pat 0 (lane k 2) + M (back 1 (lane k 2)) * pat 1 (lane k 2) + M (back 2 (lane k 2)) * pat 2 (lane k 2))
      + (rot θ 0 1 * pat 0 (lane k 2) + rot θ 1 1 * pat 1 (lane k 2) + rot θ 2 1 * pat 2 (lane k 2))
        * (M (back 74 (lane k 2)) * pat 0 (lane k 2) + M (lane k 2) * pat 1 (lane k 2) + M (back 1 (lane k 2)) * pat 2 (lane k 2))
      + (rot θ 0 2 * pat 0 (lane k 2) + rot θ 1 2 * pat 1 (lane k 2) + rot θ 2 2 * pat 2 (lane k 2))
        * (M (back 73 (lane k 2)) * pat 0 (lane k 2) + M (back 74 (lane k 2)) * pat 1 (lane k 2) + M (lane k 2) * pat 2 (lane k 2)) = _
    rw [e0, e1, e2, back1_lane2, back2_lane2, hM, hM, hM]
    ring

/-! ## The rotated reads, the regrouped rows and the coefficient rows at an entry -/

theorem rot1_at {α : Type} (v : S1024x75.Idx → α) (h : S1024x75.Rotates 1 none) (r : Fin 1024) (l : Fin 75) :
    dynamicRotate 1 1#32 none v h (ix2 r l) = v (ix2 r (back 1 l)) := rot_at v _ h r l _ rfl
theorem rot2_at {α : Type} (v : S1024x75.Idx → α) (h : S1024x75.Rotates 1 none) (r : Fin 1024) (l : Fin 75) :
    dynamicRotate 1 2#32 none v h (ix2 r l) = v (ix2 r (back 2 l)) := rot_at v _ h r l _ rfl
theorem rot74_at {α : Type} (v : S1024x75.Idx → α) (h : S1024x75.Rotates 1 none) (r : Fin 1024) (l : Fin 75) :
    dynamicRotate 1 74#32 none v h (ix2 r l) = v (ix2 r (back 74 l)) := rot_at v _ h r l _ rfl
theorem rot73_at {α : Type} (v : S1024x75.Idx → α) (h : S1024x75.Rotates 1 none) (r : Fin 1024) (l : Fin 75) :
    dynamicRotate 1 73#32 none v h (ix2 r l) = v (ix2 r (back 73 l)) := rot_at v _ h r l _ rfl

/-- The row regrouped for coordinate 0: the lane itself, one back, two back, each under its pattern row. -/
theorem pay23_at (x0 x1 x2 : Vec Ideal S1x75 .f32) (v : FVec Ideal S1024x75 .f32) (r : Fin 1024) (l : Fin 75) :
    k0_pay23 x0 x1 x2 v (ix2 r l)
      = v (ix2 r l) * x0 (ix2 (0 : Fin 1) l) + v (ix2 r (back 1 l)) * x1 (ix2 (0 : Fin 1) l) + v (ix2 r (back 2 l)) * x2 (ix2 (0 : Fin 1) l) := by
  show v (ix2 r l) * broadcastTo S1024x75 x0 _ (ix2 r l) + dynamicRotate 1 1#32 none v rotates_S1024x75_d1 (ix2 r l) * broadcastTo S1024x75 x1 _ (ix2 r l)
      + dynamicRotate 1 2#32 none v rotates_S1024x75_d1 (ix2 r l) * broadcastTo S1024x75 x2 _ (ix2 r l) = _
  rw [brow, brow, brow, rot1_at, rot2_at]

/-- The row regrouped for coordinate 1: one forward, the lane itself, one back. -/
theorem pay24_at (x0 x1 x2 : Vec Ideal S1x75 .f32) (v : FVec Ideal S1024x75 .f32) (r : Fin 1024) (l : Fin 75) :
    k0_pay24 x0 x1 x2 v (ix2 r l)
      = v (ix2 r (back 74 l)) * x0 (ix2 (0 : Fin 1) l) + v (ix2 r l) * x1 (ix2 (0 : Fin 1) l) + v (ix2 r (back 1 l)) * x2 (ix2 (0 : Fin 1) l) := by
  show dynamicRotate 1 74#32 none v rotates_S1024x75_d1 (ix2 r l) * broadcastTo S1024x75 x0 _ (ix2 r l) + v (ix2 r l) * broadcastTo S1024x75 x1 _ (ix2 r l)
      + dynamicRotate 1 1#32 none v rotates_S1024x75_d1 (ix2 r l) * broadcastTo S1024x75 x2 _ (ix2 r l) = _
  rw [brow, brow, brow, rot1_at, rot74_at]

/-- The row regrouped for coordinate 2: two forward, one forward, the lane itself. -/
theorem pay25_at (x0 x1 x2 : Vec Ideal S1x75 .f32) (v : FVec Ideal S1024x75 .f32) (r : Fin 1024) (l : Fin 75) :
    k0_pay25 x0 x1 x2 v (ix2 r l)
      = v (ix2 r (back 73 l)) * x0 (ix2 (0 : Fin 1) l) + v (ix2 r (back 74 l)) * x1 (ix2 (0 : Fin 1) l) + v (ix2 r l) * x2 (ix2 (0 : Fin 1) l) := by
  show dynamicRotate 1 73#32 none v rotates_S1024x75_d1 (ix2 r l) * broadcastTo S1024x75 x0 _ (ix2 r l) + dynamicRotate 1 74#32 none v rotates_S1024x75_d1 (ix2 r l) * broadcastTo S1024x75 x1 _ (ix2 r l)
      + v (ix2 r l) * broadcastTo S1024x75 x2 _ (ix2 r l) = _
  rw [brow, brow, brow, rot73_at, rot74_at]

/-- The coefficient row of the first moved coordinate: column 0 of the rotation, spread by the pattern rows. -/
theorem pay26_at (x0 x1 x2 : Vec Ideal S1x75 .f32) (v33 v36 v45 : FVec Ideal S1024x1 .f32) (r : Fin 1024) (l : Fin 75) :
    k0_pay26 x0 x1 x2 v33 v36 v45 (ix2 r l)
      = v36 (ix2 r (0 : Fin 1)) * x0 (ix2 (0 : Fin 1) l) + v45 (ix2 r (0 : Fin 1)) * x1 (ix2 (0 : Fin 1) l)
        + (Ideal.ofBits .f32 0x00000000#32 - v33 (ix2 r (0 : Fin 1))) * x2 (ix2 (0 : Fin 1) l) := by
  show broadcastTo S1024x75 v36 _ (ix2 r l) * broadcastTo S1024x75 x0 _ (ix2 r l) + broadcastTo S1024x75 v45 _ (ix2 r l) * broadcastTo S1024x75 x1 _ (ix2 r l)
      + broadcastTo S1024x75 (subf (broadcast S1024x1 (Scalar.ofBits (F := Ideal) .f32 0x00000000#32)) v33) _ (ix2 r l) * broadcastTo S1024x75 x2 _ (ix2 r l) = _
  rw [brow, brow, brow, bcol, bcol, bcol]
  rfl

theorem pay27_at (x0 : Vec Ideal S1x75 .f32) (v40 : FVec Ideal S1024x1 .f32) (r : Fin 1024) (l : Fin 75) :
    k0_pay27 x0 v40 (ix2 r l) = v40 (ix2 r (0 : Fin 1)) * x0 (ix2 (0 : Fin 1) l) := by
  show broadcastTo S1024x75 v40 _ (ix2 r l) * broadcastTo S1024x75 x0 _ (ix2 r l) = _
  rw [brow, bcol]

theorem pay28_at (x1 : Vec Ideal S1x75 .f32) (v30 v34 v47 : FVec Ideal S1024x1 .f32) (r : Fin 1024) (l : Fin 75) :
    k0_pay28 x1 v30 v34 v47 (ix2 r l)
      = (v47 (ix2 r (0 : Fin 1)) + v34 (ix2 r (0 : Fin 1)) * v30 (ix2 r (0 : Fin 1))) * x1 (ix2 (0 : Fin 1) l) := by
  show broadcastTo S1024x75 (addf v47 (mulf v34 v30)) _ (ix2 r l) * broadcastTo S1024x75 x1 _ (ix2 r l) = _
  rw [brow, bcol]
  rfl

/-- The stored block: the three coefficient rows times the three regrouped rows, summed. -/
theorem pay1_at (x0 x1 x2 : Vec Ideal S1x75 .f32) (v44 v53 v56 v57 : FVec Ideal S1024x1 .f32)
    (v69 v77 v85 v96 v99 v102 : FVec Ideal S1024x75 .f32) (r : Fin 1024) (l : Fin 75) :
    k0_pay1 x0 x1 x2 v44 v53 v56 v57 v69 v77 v85 v96 v99 v102 (ix2 r l)
      = v96 (ix2 r l) * v69 (ix2 r l)
        + (v99 (ix2 r l) + v102 (ix2 r l) + v56 (ix2 r (0 : Fin 1)) * x2 (ix2 (0 : Fin 1) l)) * v77 (ix2 r l)
        + (v44 (ix2 r (0 : Fin 1)) * x0 (ix2 (0 : Fin 1) l) + v53 (ix2 r (0 : Fin 1)) * x1 (ix2 (0 : Fin 1) l)
            + v57 (ix2 r (0 : Fin 1)) * x2 (ix2 (0 : Fin 1) l)) * v85 (ix2 r l) := by
  show v96 (ix2 r l) * v69 (ix2 r l)
        + (v99 (ix2 r l) + v102 (ix2 r l) + broadcastTo S1024x75 v56 _ (ix2 r l) * broadcastTo S1024x75 x2 _ (ix2 r l)) * v77 (ix2 r l)
        + (broadcastTo S1024x75 v44 _ (ix2 r l) * broadcastTo S1024x75 x0 _ (ix2 r l) + broadcastTo S1024x75 v53 _ (ix2 r l) * broadcastTo S1024x75 x1 _ (ix2 r l)
            + broadcastTo S1024x75 v57 _ (ix2 r l) * broadcastTo S1024x75 x2 _ (ix2 r l)) * v85 (ix2 r l) = _
  rw [brow, brow, brow, bcol, bcol, bcol, bcol]

/-! ## The block at an entry -/

theorem out_at (x0 x1 x2 : Vec Ideal S1x75 .f32) (X : S1024x75.Idx → ℝ) (Θ : S1024x6.Idx → ℝ)
    (h0 : ∀ l : Fin 75, x0 (ix2 (0 : Fin 1) l) = ((pat 0 l : ℝ) : EReal))
    (h1 : ∀ l : Fin 75, x1 (ix2 (0 : Fin 1) l) = ((pat 1 l : ℝ) : EReal))
    (h2 : ∀ l : Fin 75, x2 (ix2 (0 : Fin 1) l) = ((pat 2 l : ℝ) : EReal))
    (r : Fin 1024) (l : Fin 75) :
    out0_5 (F := Ideal) x0 x1 x2 (fun j => ((X j : ℝ) : EReal)) (fun j => ((Θ j : ℝ) : EReal)) (ix2 r l)
      = ((jointOut (fun l' => X (ix2 r l')) (fun q => Θ (ix2 r q)) (jointOf l) (coordOf l) : ℝ) : EReal) := by
  have hz : (![0, 0] : Fin 2 → Nat) = fun _ => 0 := funext fun a => by fin_cases a <;> rfl
  unfold out0_5
  rw [View.canon_unit_zero hz]
  simp only [View.ld_unit_zero (S := S1x75) hz, View.ld_unit_zero (S := S1024x75) hz, View.ld_unit_zero (S := S1024x6) hz]
  rw [pay1_at, pay26_at, pay27_at, pay28_at, pay23_at, pay24_at, pay25_at]
  simp only [masked_at x0 x1 x2 X Θ h0 h1 h2, h0, h1, h2, r00_at, r01_at, r02_at, r10_at, p17_at, r12_at, r21_at, r22_at,
    siny_at, cosz_at, cosx_at, Ideal.ofBits_zero_f32]
  rw [← EReal.coe_zero]
  simp only [← EReal.coe_mul, ← EReal.coe_add, ← EReal.coe_sub]
  refine congrArg Real.toEReal ?_
  refine Eq.trans ?_ (regroup_real (maskedR X Θ r) (fun l' => X (ix2 r l')) (prow Θ r) (maskedR_lane X Θ r) l)
  have e11 : rot (prow Θ r) 1 1
      = Real.sin (Θ (ix2 r 2)) * Real.sin (Θ (ix2 r 0)) * Real.sin (Θ (ix2 r 1)) + Real.cos (Θ (ix2 r 2)) * Real.cos (Θ (ix2 r 1)) := rfl
  have e20 : rot (prow Θ r) 2 0 = -Real.sin (Θ (ix2 r 0)) := rfl
  rw [e11, e20]
  ring

end Cert.KernelIdeal.Pay

end
-- ==== Proof.KernelArr.lean ====
/-
  The kernel's program on real inputs: every row of the result array is `jointOut` of the same row of the arguments.
-/
import proofs.«427264_j2113123910298_3_alg».proof.Proof.Gen.KernelIdeal.Frame
import proofs.«427264_j2113123910298_3_alg».proof.Proof.Spec
import proofs.«427264_j2113123910298_3_alg».proof.Proof.KernelPay
import Idealize.ShloMosaic.Lib.ValueIdx
import Idealize.ShloMosaic.Lib.Pipeline.Value
import Idealize.ShloMosaic.Lib.StableHlo.Run

noncomputable section

namespace Cert.KernelIdeal.Arr

open Cert.KernelIdeal Cert.KernelIdeal.Gen Idealize.ShloMosaic Idealize.ShloMosaic.TcCoe Idealize.SL.Sem Idealize.ShloMosaic.ValueIdx Cert.Joints

section Aux

variable (m : (ℓ : Loc nD τ sig) → Buf (Elt Ideal) ℓ)

/-! ## What the region finds: the three pattern rows and the two arguments as matrices of rows -/

theorem V_cst (c : Dev nD) :
    (V m c main_cst : S1x75.Idx → EReal) = fun i => FloatOps.ofBits (F := Ideal) .f32 (lit0 (S1x75.rowMajor i)) := by
  show StableHlo.after hostOps0 (fun b => m (c, b)) (Proc.devRef .tc main_cst) = _
  after_results
  rfl

theorem V_cst_0 (c : Dev nD) :
    (V m c main_cst_0 : S1x75.Idx → EReal) = fun i => FloatOps.ofBits (F := Ideal) .f32 (lit1 (S1x75.rowMajor i)) := by
  show StableHlo.after hostOps0 (fun b => m (c, b)) (Proc.devRef .tc main_cst_0) = _
  after_results
  rfl

theorem V_cst_1 (c : Dev nD) :
    (V m c main_cst_1 : S1x75.Idx → EReal) = fun i => FloatOps.ofBits (F := Ideal) .f32 (lit2 (S1x75.rowMajor i)) := by
  show StableHlo.after hostOps0 (fun b => m (c, b)) (Proc.devRef .tc main_cst_1) = _
  after_results
  rfl

theorem V_v0 (c : Dev nD) :
    (V m c main_v0 : S614400x75.Idx → EReal)
      = shapeCast S614400x75 (m ((c.tc : Thread nD τ).loc main_arg0) : S2048x300x75.Idx → EReal) shapeCasts_S2048x300x75_S614400x75 := by
  show StableHlo.after hostOps0 (fun b => m (c, b)) (Proc.devRef .tc main_v0) = _
  after_results
  rfl

theorem V_v1 (c : Dev nD) :
    (V m c main_v1 : S614400x6.Idx → EReal)
      = shapeCast S614400x6 (m ((c.tc : Thread nD τ).loc main_arg1) : S2048x300x6.Idx → EReal) shapeCasts_S2048x300x6_S614400x6 := by
  show StableHlo.after hostOps0 (fun b => m (c, b)) (Proc.devRef .tc main_v1) = _
  after_results
  rfl

/-! ## The literal tables are the pattern rows -/

/-- Entry `l` of a one-row table sits at position `l` of its row-major listing. -/
theorem rowMajor_row (l : Fin 75) : (S1x75.rowMajor (ix2 (0 : Fin 1) l) : Fin 75) = l :=
  Fin.ext (by
    show (S1x75.rowMajor (ix2 (0 : Fin 1) l)).val = l.val
    rw [Shape.rowMajor_val_two]
    show (0 : Nat) * 75 + l.val = l.val
    omega)

theorem lit0_word : ∀ l : Fin 75, lit0 l = if l.val % 3 = 0 then 0x3F800000#32 else 0x00000000#32 := by decide
theorem lit1_word : ∀ l : Fin 75, lit1 l = if l.val % 3 = 1 then 0x3F800000#32 else 0x00000000#32 := by decide
theorem lit2_word : ∀ l : Fin 75, lit2 l = if l.val % 3 = 2 then 0x3F800000#32 else 0x00000000#32 := by decide

/-- A word that is the float one where `p` holds and the float zero elsewhere reads as the real indicator of `p`. -/
theorem ofBits_ite (p : Prop) [Decidable p] :
    Ideal.ofBits .f32 (if p then 0x3F800000#32 else 0x00000000#32) = (((if p then 1 else 0 : ℝ)) : EReal) := by
  by_cases h : p
  · rw [if_pos h, if_pos h, Ideal.ofBits_one_f32]; norm_cast
  · rw [if_neg h, if_neg h, Ideal.ofBits_zero_f32]; norm_cast

theorem tab0 (c : Dev nD) (l : Fin 75) :
    (V m c main_cst : S1x75.Idx → EReal) (ix2 (0 : Fin 1) l) = ((pat 0 l : ℝ) : EReal) := by
  rw [V_cst]
  show Ideal.ofBits .f32 (lit0 (S1x75.rowMajor (ix2 (0 : Fin 1) l))) = _
  rw [rowMajor_row, lit0_word]
  exact ofBits_ite _

theorem tab1 (c : Dev nD) (l : Fin 75) :
    (V m c main_cst_0 : S1x75.Idx → EReal) (ix2 (0 : Fin 1) l) = ((pat 1 l : ℝ) : EReal) := by
  rw [V_cst_0]
  show Ideal.ofBits .f32 (lit1 (S1x75.rowMajor (ix2 (0 : Fin 1) l))) = _
  rw [rowMajor_row, lit1_word]
  exact ofBits_ite _

theorem tab2 (c : Dev nD) (l : Fin 75) :
    (V m c main_cst_1 : S1x75.Idx → EReal) (ix2 (0 : Fin 1) l) = ((pat 2 l : ℝ) : EReal) := by
  rw [V_cst_1]
  show Ideal.ofBits .f32 (lit2 (S1x75.rowMajor (ix2 (0 : Fin 1) l))) = _
  rw [rowMajor_row, lit2_word]
  exact ofBits_ite _

/-! ## Blocks of the windows

The three tables are one block each, read whole at every point. Point `t` reads rows `1024 t … 1024 t + 1023` of
the two matrices of rows and writes the same rows of the result. -/

/-- The grid has 600 points, so row `r` of block `t` is a row of the matrix. -/
def rowOf (t : Fin cfg0.N) (r : Fin 1024) : Fin 614400 :=
  ⟨1024 * t.val + r.val, by have := t.isLt; have hN : cfg0.N = 600 := N_0; omega⟩

theorem rowOf_val (t : Fin cfg0.N) (r : Fin 1024) : (rowOf t r).val = 1024 * t.val + r.val := rfl

/-- The block indices at every point of the grid: the tables stay at block (0, 0); the matrices and the result move down
    one block of rows per point. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem emb0 (t : Fin cfg0.N) (l : Fin 75) :
    (((cfg0.win 0).blk t).view.emb (ix2 (0 : Fin 1) l : S1x75.Idx) : S1x75.Idx) = ix2 (0 : Fin 1) l := by
  obtain ⟨⟨e0, e1⟩, -⟩ := idx_facts t
  funext a; apply Fin.ext
  match a with
  | ⟨0, _⟩ => show win0_0.index t (0 : Fin 2) * 1 + 1 * (0 : Nat) = 0; omega
  | ⟨1, _⟩ => show win0_0.index t (1 : Fin 2) * 75 + 1 * l.val = l.val; omega

theorem emb1 (t : Fin cfg0.N) (l : Fin 75) :
    (((cfg0.win 1).blk t).view.emb (ix2 (0 : Fin 1) l : S1x75.Idx) : S1x75.Idx) = ix2 (0 : Fin 1) l := by
  obtain ⟨-, ⟨e0, e1⟩, -⟩ := idx_facts t
  funext a; apply Fin.ext
  match a with
  | ⟨0, _⟩ => show win0_1.index t (0 : Fin 2) * 1 + 1 * (0 : Nat) = 0; omega
  | ⟨1, _⟩ => show win0_1.index t (1 : Fin 2) * 75 + 1 * l.val = l.val; omega

theorem emb2 (t : Fin cfg0.N) (l : Fin 75) :
    (((cfg0.win 2).blk t).view.emb (ix2 (0 : Fin 1) l : S1x75.Idx) : S1x75.Idx) = ix2 (0 : Fin 1) l := by
  obtain ⟨-, -, ⟨e0, e1⟩, -⟩ := idx_facts t
  funext a; apply Fin.ext
  match a with
  | ⟨0, _⟩ => show win0_2.index t (0 : Fin 2) * 1 + 1 * (0 : Nat) = 0; omega
  | ⟨1, _⟩ => show win0_2.index t (1 : Fin 2) * 75 + 1 * l.val = l.val; omega

theorem emb3 (t : Fin cfg0.N) (r : Fin 1024) (l : Fin 75) :
    (((cfg0.win 3).blk t).view.emb (ix2 r l : S1024x75.Idx) : S614400x75.Idx) = ix2 (rowOf t r) l := by
  obtain ⟨-, -, -, ⟨e0, e1⟩, -⟩ := idx_facts t
  funext a; apply Fin.ext
  match a with
  | ⟨0, _⟩ => show win0_3.index t (0 : Fin 2) * 1024 + 1 * r.val = 1024 * t.val + r.val; omega
  | ⟨1, _⟩ => show win0_3.index t (1 : Fin 2) * 75 + 1 * l.val = l.val; omega

theorem emb4 (t : Fin cfg0.N) (r : Fin 1024) (q : Fin 6) :
    (((cfg0.win 4).blk t).view.emb (ix2 r q : S1024x6.Idx) : S614400x6.Idx) = ix2 (rowOf t r) q := by
  obtain ⟨-, -, -, -, ⟨e0, e1⟩, -⟩ := idx_facts t
  funext a; apply Fin.ext
  match a with
  | ⟨0, _⟩ => show win0_4.index t (0 : Fin 2) * 1024 + 1 * r.val = 1024 * t.val + r.val; omega
  | ⟨1, _⟩ => show win0_4.index t (1 : Fin 2) * 6 + 1 * q.val = q.val; omega

theorem emb5 (t : Fin cfg0.N) (r : Fin 1024) (l : Fin 75) :
    (((cfg0.win 5).blk t).view.emb (ix2 r l : S1024x75.Idx) : S614400x75.Idx) = ix2 (rowOf t r) l := by
  obtain ⟨-, -, -, -, -, ⟨e0, e1⟩⟩ := idx_facts t
  funext a; apply Fin.ext
  match a with
  | ⟨0, _⟩ => show win0_5.index t (0 : Fin 2) * 1024 + 1 * r.val = 1024 * t.val + r.val; omega
  | ⟨1, _⟩ => show win0_5.index t (1 : Fin 2) * 75 + 1 * l.val = l.val; omega

/-- Each input block, read at an entry, is the array the region finds read at the entry's place. -/
theorem blk0_apply (c : Dev nD) (t : Fin cfg0.N) (l : Fin 75) :
    (iblk m c 0 t : Vec Ideal S1x75 .f32) (ix2 (0 : Fin 1) l) = (V m c main_cst : S1x75.Idx → EReal) (ix2 (0 : Fin 1) l) := by
  unfold iblk
  rw [View.read_apply]
  show (V m c main_cst : S1x75.Idx → EReal) (((cfg0.win 0).blk t).view.emb (ix2 (0 : Fin 1) l : S1x75.Idx)) = _
  rw [emb0]

theorem blk1_apply (c : Dev nD) (t : Fin cfg0.N) (l : Fin 75) :
    (iblk m c 1 t : Vec Ideal S1x75 .f32) (ix2 (0 : Fin 1) l) = (V m c main_cst_0 : S1x75.Idx → EReal) (ix2 (0 : Fin 1) l) := by
  unfold iblk
  rw [View.read_apply]
  show (V m c main_cst_0 : S1x75.Idx → EReal) (((cfg0.win 1).blk t).view.emb (ix2 (0 : Fin 1) l : S1x75.Idx)) = _
  rw [emb1]

theorem blk2_apply (c : Dev nD) (t : Fin cfg0.N) (l : Fin 75) :
    (iblk m c 2 t : Vec Ideal S1x75 .f32) (ix2 (0 : Fin 1) l) = (V m c main_cst_1 : S1x75.Idx → EReal) (ix2 (0 : Fin 1) l) := by
  unfold iblk
  rw [View.read_apply]
  show (V m c main_cst_1 : S1x75.Idx → EReal) (((cfg0.win 2).blk t).view.emb (ix2 (0 : Fin 1) l : S1x75.Idx)) = _
  rw [emb2]

theorem blk3_apply (c : Dev nD) (t : Fin cfg0.N) (r : Fin 1024) (l : Fin 75) :
    (iblk m c 3 t : Vec Ideal S1024x75 .f32) (ix2 r l) = (V m c main_v0 : S614400x75.Idx → EReal) (ix2 (rowOf t r) l) := by
  unfold iblk
  rw [View.read_apply]
  show (V m c main_v0 : S614400x75.Idx → EReal) (((cfg0.win 3).blk t).view.emb (ix2 r l : S1024x75.Idx)) = _
  rw [emb3]

theorem blk4_apply (c : Dev nD) (t : Fin cfg0.N) (r : Fin 1024) (q : Fin 6) :
    (iblk m c 4 t : Vec Ideal S1024x6 .f32) (ix2 r q) = (V m c main_v1 : S614400x6.Idx → EReal) (ix2 (rowOf t r) q) := by
  unfold iblk
  rw [View.read_apply]
  show (V m c main_v1 : S614400x6.Idx → EReal) (((cfg0.win 4).blk t).view.emb (ix2 r q : S1024x6.Idx)) = _
  rw [emb4]

/-! ## What a point writes back -/

/-- The block the body stores, for blocks that are three pattern rows and real rows: `jointOut` of each row. -/
theorem out_rows (x0 x1 x2 : Vec Ideal S1x75 .f32) (x3 : Vec Ideal S1024x75 .f32) (x4 : Vec Ideal S1024x6 .f32)
    (Xb : S1024x75.Idx → ℝ) (Θb : S1024x6.Idx → ℝ)
    (h0 : ∀ l : Fin 75, x0 (ix2 (0 : Fin 1) l) = ((pat 0 l : ℝ) : EReal))
    (h1 : ∀ l : Fin 75, x1 (ix2 (0 : Fin 1) l) = ((pat 1 l : ℝ) : EReal))
    (h2 : ∀ l : Fin 75, x2 (ix2 (0 : Fin 1) l) = ((pat 2 l : ℝ) : EReal))
    (h3 : x3 = fun j => ((Xb j : ℝ) : EReal)) (h4 : x4 = fun j => ((Θb j : ℝ) : EReal))
    (r : Fin 1024) (l : Fin 75) :
    out0_5 (F := Ideal) x0 x1 x2 x3 x4 (ix2 r l)
      = ((jointOut (fun l' => Xb (ix2 r l')) (fun q => Θb (ix2 r q)) (jointOf l) (coordOf l) : ℝ) : EReal) := by
  subst h3 h4
  exact Pay.out_at x0 x1 x2 Xb Θb h0 h1 h2 r l

/-- Rows `1024 t … 1024 t + 1023` of a matrix of rows, as a block. -/
def blockX (X : XRows.Idx → ℝ) (t : Fin cfg0.N) : S1024x75.Idx → ℝ :=
  fun j => X (ix2 (rowOf t ⟨(j 0).val, idx2_lt0 j⟩) ⟨(j 1).val, idx2_lt1 j⟩)
def blockΘ (Θ : PRows.Idx → ℝ) (t : Fin cfg0.N) : S1024x6.Idx → ℝ :=
  fun j => Θ (ix2 (rowOf t ⟨(j 0).val, idx2_lt0 j⟩) ⟨(j 1).val, idx2_lt1 j⟩)

theorem blockX_ix2 (X : XRows.Idx → ℝ) (t : Fin cfg0.N) (r : Fin 1024) (l : Fin 75) :
    blockX X t (ix2 r l) = X (ix2 (rowOf t r) l) := rfl
theorem blockΘ_ix2 (Θ : PRows.Idx → ℝ) (t : Fin cfg0.N) (r : Fin 1024) (q : Fin 6) :
    blockΘ Θ t (ix2 r q) = Θ (ix2 (rowOf t r) q) := rfl

/-- Where the matrices of rows the region finds are real, point `t`'s stored block at row `r`, lane `l` is the result of
    row `1024 t + r`. -/
theorem stored_at (c : Dev nD) (X : XRows.Idx → ℝ) (Θ : PRows.Idx → ℝ)
    (hX : (V m c main_v0 : S614400x75.Idx → EReal) = fun j => ((X j : ℝ) : EReal))
    (hΘ : (V m c main_v1 : S614400x6.Idx → EReal) = fun j => ((Θ j : ℝ) : EReal))
    (t : Fin cfg0.N) (r : Fin 1024) (l : Fin 75) :
    out0_5 (F := Ideal) (iblk m c 0 t) (iblk m c 1 t) (iblk m c 2 t) (iblk m c 3 t) (iblk m c 4 t) (ix2 r l)
      = ((rowsAt X Θ (rowOf t r) l : ℝ) : EReal) := by
  have h3 : (iblk m c 3 t : Vec Ideal S1024x75 .f32) = fun j => ((blockX X t j : ℝ) : EReal) := by
    funext j
    obtain ⟨r', l', rfl⟩ : ∃ (r' : Fin 1024) (l' : Fin 75), j = ix2 r' l' := ⟨j 0, j 1, eq_ix2 j⟩
    rw [blk3_apply, hX, blockX_ix2]
  have h4 : (iblk m c 4 t : Vec Ideal S1024x6 .f32) = fun j => ((blockΘ Θ t j : ℝ) : EReal) := by
    funext j
    obtain ⟨r', q', rfl⟩ : ∃ (r' : Fin 1024) (q' : Fin 6), j = ix2 r' q' := ⟨j 0, j 1, eq_ix2 j⟩
    rw [blk4_apply, hΘ, blockΘ_ix2]
  exact out_rows (iblk m c 0 t) (iblk m c 1 t) (iblk m c 2 t) (iblk m c 3 t) (iblk m c 4 t) (blockX X t) (blockΘ Θ t)
    (fun l' => (blk0_apply m c t l').trans (tab0 m c l'))
    (fun l' => (blk1_apply m c t l').trans (tab1 m c l'))
    (fun l' => (blk2_apply m c t l').trans (tab2 m c l')) h3 h4 r l

/-- WHAT POINT `t` WRITES BACK is block `t` of the result as a matrix of rows. -/
theorem flushed_eq (c : Dev nD) (X : XRows.Idx → ℝ) (Θ : PRows.Idx → ℝ)
    (hX : (V m c main_v0 : S614400x75.Idx → EReal) = fun j => ((X j : ℝ) : EReal))
    (hΘ : (V m c main_v1 : S614400x6.Idx → EReal) = fun j => ((Θ j : ℝ) : EReal))
    (t : Fin cfg0.N) :
    (dats m 0 c).flushed 5 t
      = ((cfg0.win 5).blk t).view.read (Elt Ideal) (fun j : S614400x75.Idx => ((rows X Θ j : ℝ) : EReal)) := by
  show (cfg0.win 5).cut (grid0.coords t) ((dats m 0 c).after 5 t) = _
  rw [after0_5]
  refine funext fun (y : S1024x75.Idx) => ?_
  obtain ⟨r, l, rfl⟩ : ∃ (r : Fin 1024) (l : Fin 75), y = ix2 r l := ⟨y 0, y 1, eq_ix2 y⟩
  rw [View.read_apply]
  show out0_5 (F := Ideal) (iblk m c 0 t) (iblk m c 1 t) (iblk m c 2 t) (iblk m c 3 t) (iblk m c 4 t) (ix2 r l)
    = ((rows X Θ (((cfg0.win 5).blk t).view.emb (ix2 r l : S1024x75.Idx)) : ℝ) : EReal)
  rw [emb5, rows_ix2]
  exact stored_at m c X Θ hX hΘ t r l

/-! ## The blocks tile the result -/

/-- An index of the result is in point `t`'s block iff each coordinate is in the block's range on its axis. -/
theorem mem_blk5 (t : Fin cfg0.N) (i : S614400x75.Idx) :
    i ∈ ((cfg0.win 5).blk t).view.set ↔ ∀ a : Fin 2, win0_5.index t a * S1024x75.size a ≤ (i a).val
      ∧ (i a).val < win0_5.index t a * S1024x75.size a + S1024x75.size a := by
  show i ∈ ((View.whole main_v2).slice (win0_5.rect t)).set ↔ _
  rw [View.set_slice_whole, Rect.mem_set_unit]
  exact Iff.rfl

/-- Row `n` lies in the block of point `n / 1024`, and every point writes its block back. -/
theorem cover (i : S614400x75.Idx) :
    ∃ t : Fin cfg0.N, (cfg0.win 5).flush t = true ∧ i ∈ ((cfg0.win 5).blk t).view.set := by
  have hi0 : (i 0).val < 614400 := idx2_lt0 i
  have hi1 : (i 1).val < 75 := idx2_lt1 i
  have hN : cfg0.N = 600 := N_0
  have hlt : (i 0).val / 1024 < cfg0.N := by omega
  obtain ⟨t, ht⟩ : ∃ t : Fin cfg0.N, t.val = (i 0).val / 1024 := ⟨⟨(i 0).val / 1024, hlt⟩, rfl⟩
  refine ⟨t, flush0_5 t, ?_⟩
  rw [mem_blk5]
  obtain ⟨-, -, -, -, -, ⟨e0, e1⟩⟩ := idx_facts t
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 75 ≤ (i 1).val ∧ (i 1).val < win0_5.index t (1 : Fin 2) * 75 + 75
    omega

/-- THE RESULT as a matrix of rows, after the last point. -/
theorem final (c : Dev nD) (X : XRows.Idx → ℝ) (Θ : PRows.Idx → ℝ)
    (hX : (V m c main_v0 : S614400x75.Idx → EReal) = fun j => ((X j : ℝ) : EReal))
    (hΘ : (V m c main_v1 : S614400x6.Idx → EReal) = fun j => ((Θ j : ℝ) : EReal)) :
    (dats m 0 c).arrAt 5 cfg0.N = fun j : S614400x75.Idx => ((rows X Θ j : ℝ) : EReal) :=
  (dats m 0 c).arrAt_eq_of_cover 5 _ (fun t _ => flushed_eq m c X Θ hX hΘ t) cover

/-! ## The last reshape, and rows against the arrays as given -/

/-- After the region the result array is reshaped: the program's result is that reshape of the result as a matrix of rows. -/
theorem tail_eq (c : Dev nD) (G : S614400x75.Idx → EReal) (hfin : (dats m 0 c).arrAt 5 cfg0.N = G) :
    Pipeline.afterTail₀ cfgs (dats m) 0 (V0 m) [hostOps1] c main_v3
      = shapeCast S2048x300x75 G shapeCasts_S614400x75_S2048x300x75 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 5 cfg0.N := Pipeline.withArrays_arr spec0 launch0.win.arr_inj c _ _ 5
  rw [e, hfin]
  rfl

/-- Row `(b, t)` of the arrays is row `300 b + t` of the matrices. -/
def rowIx (b : Fin 2048) (t : Fin 300) : Fin 614400 := ⟨300 * b.val + t.val, by omega⟩

theorem pos75 (b : Fin 2048) (t : Fin 300) (l : Fin 75) :
    (S614400x75.rowMajor (ix2 (rowIx b t) l)).val = (S2048x300x75.rowMajor (ix3 b t l)).val := by
  rw [Shape.rowMajor_val_two, Shape.rowMajor_val_three]
  show (300 * b.val + t.val) * 75 + l.val = (b.val * 300 + t.val) * 75 + l.val
  omega

theorem pos6 (b : Fin 2048) (t : Fin 300) (q : Fin 6) :
    (S614400x6.rowMajor (ix2 (rowIx b t) q)).val = (S2048x300x6.rowMajor (ix3 b t q)).val := by
  rw [Shape.rowMajor_val_two, Shape.rowMajor_val_three]
  show (300 * b.val + t.val) * 6 + q.val = (b.val * 300 + t.val) * 6 + q.val
  omega

end Aux

theorem run_real (m : (ℓ : Loc nD τ sig) → Buf (Elt Ideal) ℓ) (ρ : Dev nD → PrngReg)
    (Xr : Dev nD → XArr.Idx → ℝ) (Θr : Dev nD → PArr.Idx → ℝ)
    (hx : ∀ c : Dev nD, m ((c.tc : Thread nD τ).loc main_arg0) = fun i => ((Xr c i : ℝ) : EReal))
    (hθ : ∀ c : Dev nD, m ((c.tc : Thread nD τ).loc main_arg1) = fun i => ((Θr c i : ℝ) : EReal)) :
    θ_run (defs (F := Ideal)) (onTc (τ := τ) (main (F := Ideal))) ⟨m, fun _ => 0, ρ⟩ fun r => ∀ c : Dev nD,
      r.2.mem ((c.tc : Thread nD τ).loc main_v3) = (fun i => ((whole (Xr c) (Θr c) i : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩)
    (run_main m ρ)
  refine ((h c).2 main_v3 (Pipeline.mem_restRefs_of main_v3 (by decide) (by decide))).trans ?_
  -- the arguments as real matrices of rows
  have hX : (V m c main_v0 : S614400x75.Idx → EReal)
      = fun j => ((shapeCast XRows (Xr c) shapeCasts_S2048x300x75_S614400x75 j : ℝ) : EReal) := by
    rw [V_v0, hx c]; rfl
  have hΘ : (V m c main_v1 : S614400x6.Idx → EReal)
      = fun j => ((shapeCast PRows (Θr c) shapeCasts_S2048x300x6_S614400x6 j : ℝ) : EReal) := by
    rw [V_v1, hθ c]; rfl
  rw [tail_eq m c _ (final m c _ _ hX hΘ)]
  funext i
  obtain ⟨b, t, l, rfl⟩ : ∃ (b : Fin 2048) (t : Fin 300) (l : Fin 75), i = ix3 b t l := ⟨i 0, i 1, i 2, eq_ix3 i⟩
  rw [shapeCast_apply _ shapeCasts_S614400x75_S2048x300x75 (ix3 b t l) (ix2 (rowIx b t) l) (pos75 b t l), rows_ix2, whole_ix3]
  exact congrArg _ (rowsAt_eq_wholeAt _ _ (Xr c) (Θr c) (rowIx b t) b t
    (fun l' => shapeCast_apply (Xr c) shapeCasts_S2048x300x75_S614400x75 (ix2 (rowIx b t) l') (ix3 b t l') (pos75 b t l').symm)
    (fun q => shapeCast_apply (Θr c) shapeCasts_S2048x300x6_S614400x6 (ix2 (rowIx b t) q) (ix3 b t q) (pos6 b t q).symm) l)

end Cert.KernelIdeal.Arr

end
-- ==== Proof.RefMoved.lean ====
/-
  The reference's first stage on real inputs, read at an entry: the product of the translation matrix `[I | t]` with the
  joint's homogeneous coordinates, times the indicator of a nonzero entry, is coordinate `j` of joint `k` moved by its
  translation and kept only where the entry was not zero.
-/
import proofs.«427264_j2113123910298_3_alg».proof.Proof.Gen.ReferenceIdeal.Read
import proofs.«427264_j2113123910298_3_alg».proof.Proof.Spec
import proofs.«427264_j2113123910298_3_alg».proof.Proof.LibRealCoe
import Idealize.ShloMosaic.Lib.ValueIdx
import Idealize.ShloMosaic.Lib.Pipeline.Value

noncomputable section

namespace Cert.ReferenceIdeal.Moved

open Cert.ReferenceIdeal Cert.ReferenceIdeal.Read Idealize.ShloMosaic Idealize.ShloMosaic.TcCoe Idealize.ShloMosaic.ValueIdx Cert.Joints

/-- Row `(b, t)` of the arrays is row `300 b + t` of the matrices of rows. -/
def row (b : Fin 2048) (t : Fin 300) : Fin 614400 := ⟨300 * b.val + t.val, by omega⟩

/-- The first argument as a matrix of rows, at row `300 b + t`, is the array at `(b, t)`. -/
theorem v4_at (x0 : (⟨S2048x300x75, .f32⟩ : BufTy).Contents (Elt Ideal)) (b : Fin 2048) (t : Fin 300) (l : Fin 75) :
    val_main_v4 (F := Ideal) x0 (ix2 (row b t) l) = x0 (ix3 b t l) := by
  rw [val_main_v4_apply]
  congr 1
  funext a
  have hb := b.isLt; have ht := t.isLt; have hl := l.isLt
  match a with
  | ⟨0, _⟩ => exact Fin.ext (by show ((300 * b.val + t.val) * 75 + l.val) / 22500 = b.val; omega)
  | ⟨1, _⟩ => exact Fin.ext (by show ((300 * b.val + t.val) * 75 + l.val) / 75 % 300 = t.val; omega)
  | ⟨2, _⟩ => exact Fin.ext (by show ((300 * b.val + t.val) * 75 + l.val) % 75 = l.val; omega)

/-- The second argument as a matrix of rows, at row `300 b + t`, is the array at `(b, t)`. -/
theorem v0_at (x1 : (⟨S2048x300x6, .f32⟩ : BufTy).Contents (Elt Ideal)) (b : Fin 2048) (t : Fin 300) (q : Fin 6) :
    val_main_v0 (F := Ideal) x1 (ix2 (row b t) q) = x1 (ix3 b t q) := by
  rw [val_main_v0_apply]
  congr 1
  funext a
  have hb := b.isLt; have ht := t.isLt; have hq := q.isLt
  match a with
  | ⟨0, _⟩ => exact Fin.ext (by show ((300 * b.val + t.val) * 6 + q.val) / 1800 = b.val; omega)
  | ⟨1, _⟩ => exact Fin.ext (by show ((300 * b.val + t.val) * 6 + q.val) / 6 % 300 = t.val; omega)
  | ⟨2, _⟩ => exact Fin.ext (by show ((300 * b.val + t.val) * 6 + q.val) % 6 = q.val; omega)

/-- The homogeneous coordinates of joint `k`: entry `q < 3` is coordinate `q` of the joint. -/
theorem v8_coord (x0 : (⟨S2048x300x75, .f32⟩ : BufTy).Contents (Elt Ideal)) (b : Fin 2048) (t : Fin 300) (k : Fin 25) (q : Fin 3) :
    val_main_v8 (F := Ideal) x0 (ix3 (row b t) (⟨q.val, by omega⟩ : Fin 4) k) = x0 (ix3 b t (lane k q)) := by
  unfold val_main_v8
  refine (concatenate_pair_apply_left (t := S614400x4x25) (s₁ := S614400x3x25) (s₂ := S614400x1x25) 1 _ _ _ _ rfl (ix3 (row b t) q k) (fun a => ?_)).trans ?_
  · match a with
    | ⟨0, _⟩ => rfl
    | ⟨1, _⟩ => rfl
    | ⟨2, _⟩ => rfl
  · rw [val_main_v6_apply, val_main_v5_apply]
    have hb := b.isLt; have ht := t.isLt; have hk := k.isLt; have hq := q.isLt
    have e : idx_main_v5 (idx_main_v6 (ix3 (row b t) q k)) = ix2 (row b t) (lane k q) := by
      funext a
      match a with
      | ⟨0, _⟩ => exact Fin.ext (by show (((300 * b.val + t.val) * 25 + k.val) * 3 + q.val) / 75 = 300 * b.val + t.val; omega)
      | ⟨1, _⟩ => exact Fin.ext (by show (((300 * b.val + t.val) * 25 + k.val) * 3 + q.val) % 75 = 3 * k.val + q.val; omega)
    rw [e, v4_at]

/-- The homogeneous coordinates of joint `k`: the last entry is one. -/
theorem v8_one (x0 : (⟨S2048x300x75, .f32⟩ : BufTy).Contents (Elt Ideal)) (n : Fin 614400) (k : Fin 25) :
    val_main_v8 (F := Ideal) x0 (ix3 n (3 : Fin 4) k) = 1 := by
  unfold val_main_v8
  refine (concatenate_pair_apply_right (t := S614400x4x25) (s₁ := S614400x3x25) (s₂ := S614400x1x25) 1 _ _ _ _ rfl rfl (ix3 n (0 : Fin 1) k) (fun a ha => ?_) ?_).trans ?_
  · match a with
    | ⟨0, _⟩ => rfl
    | ⟨1, _⟩ => exact absurd rfl ha
    | ⟨2, _⟩ => rfl
  · rfl
  · rw [val_main_v7_apply, val_main_cst_0_apply]
    exact Ideal.ofBits_one_f32

/-- Entry 3, 4, 5 of row `n` of the parameters, taken out as a vector over the rows. -/
theorem v10_at (x1 : (⟨S2048x300x6, .f32⟩ : BufTy).Contents (Elt Ideal)) (n : Fin 614400) :
    val_main_v10 (F := Ideal) x1 (ix1 n) = val_main_v0 (F := Ideal) x1 (ix2 n (3 : Fin 6)) := by
  rw [val_main_v10_apply, val_main_v9_apply]
  congr 1
  funext a
  match a with
  | ⟨0, _⟩ => exact Fin.ext (by show n.val / 1 = n.val; omega)
  | ⟨1, _⟩ => rfl
theorem v12_at (x1 : (⟨S2048x300x6, .f32⟩ : BufTy).Contents (Elt Ideal)) (n : Fin 614400) :
    val_main_v12 (F := Ideal) x1 (ix1 n) = val_main_v0 (F := Ideal) x1 (ix2 n (4 : Fin 6)) := by
  rw [val_main_v12_apply, val_main_v11_apply]
  congr 1
  funext a
  match a with
  | ⟨0, _⟩ => exact Fin.ext (by show n.val / 1 = n.val; omega)
  | ⟨1, _⟩ => rfl
theorem v14_at (x1 : (⟨S2048x300x6, .f32⟩ : BufTy).Contents (Elt Ideal)) (n : Fin 614400) :
    val_main_v14 (F := Ideal) x1 (ix1 n) = val_main_v0 (F := Ideal) x1 (ix2 n (5 : Fin 6)) := by
  rw [val_main_v14_apply, val_main_v13_apply]
  congr 1
  funext a
  match a with
  | ⟨0, _⟩ => exact Fin.ext (by show n.val / 1 = n.val; omega)
  | ⟨1, _⟩ => rfl

/-- Four columns laid side by side, read at column `0`, `1`, `2`, `3`: the column itself. -/
theorem cat4_at0 {α : Type} (y0 y1 y2 y3 : S614400x1.Idx → α)
    (h : Shape.Concatenates [S614400x1, S614400x1, S614400x1, S614400x1] S614400x4 1) (n : Fin 614400) :
    concatenate S614400x4 1 [⟨S614400x1, y0⟩, ⟨S614400x1, y1⟩, ⟨S614400x1, y2⟩, ⟨S614400x1, y3⟩] h (ix2 n (0 : Fin 4))
      = y0 (ix2 n (0 : Fin 1)) :=
  concatenate_apply_piece (t := S614400x4) 1 [⟨S614400x1, y0⟩, ⟨S614400x1, y1⟩, ⟨S614400x1, y2⟩, ⟨S614400x1, y3⟩] h (ix2 n (0 : Fin 4)) 0 (by show (0 : Nat) < 4; decide)
    S614400x1 y0 rfl rfl 0 rfl (ix2 n (0 : Fin 1))
    (fun a ha => match a with
      | ⟨0, _⟩ => rfl
      | ⟨1, _⟩ => absurd rfl ha) rfl
theorem cat4_at1 {α : Type} (y0 y1 y2 y3 : S614400x1.Idx → α)
    (h : Shape.Concatenates [S614400x1, S614400x1, S614400x1, S614400x1] S614400x4 1) (n : Fin 614400) :
    concatenate S614400x4 1 [⟨S614400x1, y0⟩, ⟨S614400x1, y1⟩, ⟨S614400x1, y2⟩, ⟨S614400x1, y3⟩] h (ix2 n (1 : Fin 4))
      = y1 (ix2 n (0 : Fin 1)) :=
  concatenate_apply_piece (t := S614400x4) 1 [⟨S614400x1, y0⟩, ⟨S614400x1, y1⟩, ⟨S614400x1, y2⟩, ⟨S614400x1, y3⟩] h (ix2 n (1 : Fin 4)) 1 (by show (1 : Nat) < 4; decide)
    S614400x1 y1 rfl rfl 1 rfl (ix2 n (0 : Fin 1))
    (fun a ha => match a with
      | ⟨0, _⟩ => rfl
      | ⟨1, _⟩ => absurd rfl ha) rfl
theorem cat4_at2 {α : Type} (y0 y1 y2 y3 : S614400x1.Idx → α)
    (h : Shape.Concatenates [S614400x1, S614400x1, S614400x1, S614400x1] S614400x4 1) (n : Fin 614400) :
    concatenate S614400x4 1 [⟨S614400x1, y0⟩, ⟨S614400x1, y1⟩, ⟨S614400x1, y2⟩, ⟨S614400x1, y3⟩] h (ix2 n (2 : Fin 4))
      = y2 (ix2 n (0 : Fin 1)) :=
  concatenate_apply_piece (t := S614400x4) 1 [⟨S614400x1, y0⟩, ⟨S614400x1, y1⟩, ⟨S614400x1, y2⟩, ⟨S614400x1, y3⟩] h (ix2 n (2 : Fin 4)) 2 (by show (2 : Nat) < 4; decide)
    S614400x1 y2 rfl rfl 2 rfl (ix2 n (0 : Fin 1))
    (fun a ha => match a with
      | ⟨0, _⟩ => rfl
      | ⟨1, _⟩ => absurd rfl ha) rfl
theorem cat4_at3 {α : Type} (y0 y1 y2 y3 : S614400x1.Idx → α)
    (h : Shape.Concatenates [S614400x1, S614400x1, S614400x1, S614400x1] S614400x4 1) (n : Fin 614400) :
    concatenate S614400x4 1 [⟨S614400x1, y0⟩, ⟨S614400x1, y1⟩, ⟨S614400x1, y2⟩, ⟨S614400x1, y3⟩] h (ix2 n (3 : Fin 4))
      = y3 (ix2 n (0 : Fin 1)) :=
  concatenate_apply_piece (t := S614400x4) 1 [⟨S614400x1, y0⟩, ⟨S614400x1, y1⟩, ⟨S614400x1, y2⟩, ⟨S614400x1, y3⟩] h (ix2 n (3 : Fin 4)) 3 (by show (3 : Nat) < 4; decide)
    S614400x1 y3 rfl rfl 3 rfl (ix2 n (0 : Fin 1))
    (fun a ha => match a with
      | ⟨0, _⟩ => rfl
      | ⟨1, _⟩ => absurd rfl ha) rfl

/-- Three rows stacked, read at row `0`, `1`, `2`: the row itself. -/
theorem cat3_at0 {α : Type} (y0 y1 y2 : S614400x1x4.Idx → α)
    (h : Shape.Concatenates [S614400x1x4, S614400x1x4, S614400x1x4] S614400x3x4 1) (n : Fin 614400) (q : Fin 4) :
    concatenate S614400x3x4 1 [⟨S614400x1x4, y0⟩, ⟨S614400x1x4, y1⟩, ⟨S614400x1x4, y2⟩] h (ix3 n (0 : Fin 3) q)
      = y0 (ix3 n (0 : Fin 1) q) :=
  concatenate_apply_piece (t := S614400x3x4) 1 [⟨S614400x1x4, y0⟩, ⟨S614400x1x4, y1⟩, ⟨S614400x1x4, y2⟩] h (ix3 n (0 : Fin 3) q) 0 (by show (0 : Nat) < 3; decide)
    S614400x1x4 y0 rfl rfl 0 rfl (ix3 n (0 : Fin 1) q)
    (fun a ha => match a with
      | ⟨0, _⟩ => rfl
      | ⟨1, _⟩ => absurd rfl ha
      | ⟨2, _⟩ => rfl) rfl
theorem cat3_at1 {α : Type} (y0 y1 y2 : S614400x1x4.Idx → α)
    (h : Shape.Concatenates [S614400x1x4, S614400x1x4, S614400x1x4] S614400x3x4 1) (n : Fin 614400) (q : Fin 4) :
    concatenate S614400x3x4 1 [⟨S614400x1x4, y0⟩, ⟨S614400x1x4, y1⟩, ⟨S614400x1x4, y2⟩] h (ix3 n (1 : Fin 3) q)
      = y1 (ix3 n (0 : Fin 1) q) :=
  concatenate_apply_piece (t := S614400x3x4) 1 [⟨S614400x1x4, y0⟩, ⟨S614400x1x4, y1⟩, ⟨S614400x1x4, y2⟩] h (ix3 n (1 : Fin 3) q) 1 (by show (1 : Nat) < 3; decide)
    S614400x1x4 y1 rfl rfl 1 rfl (ix3 n (0 : Fin 1) q)
    (fun a ha => match a with
      | ⟨0, _⟩ => rfl
      | ⟨1, _⟩ => absurd rfl ha
      | ⟨2, _⟩ => rfl) rfl
theorem cat3_at2 {α : Type} (y0 y1 y2 : S614400x1x4.Idx → α)
    (h : Shape.Concatenates [S614400x1x4, S614400x1x4, S614400x1x4] S614400x3x4 1) (n : Fin 614400) (q : Fin 4) :
    concatenate S614400x3x4 1 [⟨S614400x1x4, y0⟩, ⟨S614400x1x4, y1⟩, ⟨S614400x1x4, y2⟩] h (ix3 n (2 : Fin 3) q)
      = y2 (ix3 n (0 : Fin 1) q) :=
  concatenate_apply_piece (t := S614400x3x4) 1 [⟨S614400x1x4, y0⟩, ⟨S614400x1x4, y1⟩, ⟨S614400x1x4, y2⟩] h (ix3 n (2 : Fin 3) q) 2 (by show (2 : Nat) < 3; decide)
    S614400x1x4 y2 rfl rfl 2 rfl (ix3 n (0 : Fin 1) q)
    (fun a ha => match a with
      | ⟨0, _⟩ => rfl
      | ⟨1, _⟩ => absurd rfl ha
      | ⟨2, _⟩ => rfl) rfl

/-- Row 0 of the translation matrix `[I | t]` at row `n`: `1, 0, 0` and entry 3 of the parameters. -/
theorem v21_at (x1 : (⟨S2048x300x6, .f32⟩ : BufTy).Contents (Elt Ideal)) (n : Fin 614400) :
    val_main_v21 (F := Ideal) x1 (ix2 n (0 : Fin 4)) = 1
      ∧ val_main_v21 (F := Ideal) x1 (ix2 n (1 : Fin 4)) = 0
      ∧ val_main_v21 (F := Ideal) x1 (ix2 n (2 : Fin 4)) = 0
      ∧ val_main_v21 (F := Ideal) x1 (ix2 n (3 : Fin 4)) = val_main_v0 (F := Ideal) x1 (ix2 n (3 : Fin 6)) := by
  unfold val_main_v21
  refine ⟨?_, ?_, ?_, ?_⟩
  · rw [cat4_at0, val_main_v17_apply, val_main_v16_apply, val_main_cst_2_apply]; exact Ideal.ofBits_one_f32
  · rw [cat4_at1, val_main_v18_apply, val_main_v15_apply, val_main_cst_1_apply]; exact Ideal.ofBits_zero_f32
  · rw [cat4_at2, val_main_v19_apply, val_main_v15_apply, val_main_cst_1_apply]; exact Ideal.ofBits_zero_f32
  · rw [cat4_at3, val_main_v20_apply]
    have e : idx_main_v20 (ix2 n (0 : Fin 1)) = ix1 n := by
      funext a; match a with | ⟨0, _⟩ => rfl
    rw [e, v10_at]
/-- Row 1: `0, 1, 0` and entry 4 of the parameters. -/
theorem v26_at (x1 : (⟨S2048x300x6, .f32⟩ : BufTy).Contents (Elt Ideal)) (n : Fin 614400) :
    val_main_v26 (F := Ideal) x1 (ix2 n (0 : Fin 4)) = 0
      ∧ val_main_v26 (F := Ideal) x1 (ix2 n (1 : Fin 4)) = 1
      ∧ val_main_v26 (F := Ideal) x1 (ix2 n (2 : Fin 4)) = 0
      ∧ val_main_v26 (F := Ideal) x1 (ix2 n (3 : Fin 4)) = val_main_v0 (F := Ideal) x1 (ix2 n (4 : Fin 6)) := by
  unfold val_main_v26
  refine ⟨?_, ?_, ?_, ?_⟩
  · rw [cat4_at0, val_main_v22_apply, val_main_v15_apply, val_main_cst_1_apply]; exact Ideal.ofBits_zero_f32
  · rw [cat4_at1, val_main_v23_apply, val_main_v16_apply, val_main_cst_2_apply]; exact Ideal.ofBits_one_f32
  · rw [cat4_at2, val_main_v24_apply, val_main_v15_apply, val_main_cst_1_apply]; exact Ideal.ofBits_zero_f32
  · rw [cat4_at3, val_main_v25_apply]
    have e : idx_main_v25 (ix2 n (0 : Fin 1)) = ix1 n := by
      funext a; match a with | ⟨0, _⟩ => rfl
    rw [e, v12_at]
/-- Row 2: `0, 0, 1` and entry 5 of the parameters. -/
theorem v31_at (x1 : (⟨S2048x300x6, .f32⟩ : BufTy).Contents (Elt Ideal)) (n : Fin 614400) :
    val_main_v31 (F := Ideal) x1 (ix2 n (0 : Fin 4)) = 0
      ∧ val_main_v31 (F := Ideal) x1 (ix2 n (1 : Fin 4)) = 0
      ∧ val_main_v31 (F := Ideal) x1 (ix2 n (2 : Fin 4)) = 1
      ∧ val_main_v31 (F := Ideal) x1 (ix2 n (3 : Fin 4)) = val_main_v0 (F := Ideal) x1 (ix2 n (5 : Fin 6)) := by
  unfold val_main_v31
  refine ⟨?_, ?_, ?_, ?_⟩
  · rw [cat4_at0, val_main_v27_apply, val_main_v15_apply, val_main_cst_1_apply]; exact Ideal.ofBits_zero_f32
  · rw [cat4_at1, val_main_v28_apply, val_main_v15_apply, val_main_cst_1_apply]; exact Ideal.ofBits_zero_f32
  · rw [cat4_at2, val_main_v29_apply, val_main_v16_apply, val_main_cst_2_apply]; exact Ideal.ofBits_one_f32
  · rw [cat4_at3, val_main_v30_apply]
    have e : idx_main_v30 (ix2 n (0 : Fin 1)) = ix1 n := by
      funext a; match a with | ⟨0, _⟩ => rfl
    rw [e, v14_at]

/-- The translation matrix's row `i` is the `i`-th of the three rows above. -/
theorem v35_row0 (x1 : (⟨S2048x300x6, .f32⟩ : BufTy).Contents (Elt Ideal)) (n : Fin 614400) (q : Fin 4) :
    val_main_v35 (F := Ideal) x1 (ix3 n (0 : Fin 3) q) = val_main_v21 (F := Ideal) x1 (ix2 n q) := by
  unfold val_main_v35
  rw [cat3_at0, val_main_v32_apply]
  congr 1
  funext a
  match a with
  | ⟨0, _⟩ => rfl
  | ⟨1, _⟩ => rfl
theorem v35_row1 (x1 : (⟨S2048x300x6, .f32⟩ : BufTy).Contents (Elt Ideal)) (n : Fin 614400) (q : Fin 4) :
    val_main_v35 (F := Ideal) x1 (ix3 n (1 : Fin 3) q) = val_main_v26 (F := Ideal) x1 (ix2 n q) := by
  unfold val_main_v35
  rw [cat3_at1, val_main_v33_apply]
  congr 1
  funext a
  match a with
  | ⟨0, _⟩ => rfl
  | ⟨1, _⟩ => rfl
theorem v35_row2 (x1 : (⟨S2048x300x6, .f32⟩ : BufTy).Contents (Elt Ideal)) (n : Fin 614400) (q : Fin 4) :
    val_main_v35 (F := Ideal) x1 (ix3 n (2 : Fin 3) q) = val_main_v31 (F := Ideal) x1 (ix2 n q) := by
  unfold val_main_v35
  rw [cat3_at2, val_main_v34_apply]
  congr 1
  funext a
  match a with
  | ⟨0, _⟩ => rfl
  | ⟨1, _⟩ => rfl

/-- The product of the translation matrix with the homogeneous coordinates, at row `300 b + t`, coordinate `i`, joint `k`:
    the coordinate plus its translation. -/
theorem v36_at0 (x : XArr.Idx → ℝ) (θ : PArr.Idx → ℝ) (b : Fin 2048) (t : Fin 300) (k : Fin 25) :
    val_main_v36 (F := Ideal) (fun i => ((x i : ℝ) : EReal)) (fun i => ((θ i : ℝ) : EReal)) (ix3 (row b t) (0 : Fin 3) k)
      = ((x (ix3 b t (lane k 0)) + θ (ix3 b t (shift 0)) : ℝ) : EReal) := by
  have el : ∀ q : Fin 4, lidx_main_v36 (ix3 (row b t) (0 : Fin 3) k) q = ix3 (row b t) (0 : Fin 3) q := fun q => by
    funext a
    match a with
    | ⟨0, _⟩ => rfl
    | ⟨1, _⟩ => rfl
    | ⟨2, _⟩ => rfl
  have er : ∀ q : Fin 4, ridx_main_v36 (ix3 (row b t) (0 : Fin 3) k) q = ix3 (row b t) q k := fun q => by
    funext a
    match a with
    | ⟨0, _⟩ => rfl
    | ⟨1, _⟩ => rfl
    | ⟨2, _⟩ => rfl
  have c0 : val_main_v8 (F := Ideal) (fun i => ((x i : ℝ) : EReal)) (ix3 (row b t) (0 : Fin 4) k) = ((x (ix3 b t (lane k 0)) : ℝ) : EReal) :=
    v8_coord _ b t k 0
  have c1 : val_main_v8 (F := Ideal) (fun i => ((x i : ℝ) : EReal)) (ix3 (row b t) (1 : Fin 4) k) = ((x (ix3 b t (lane k 1)) : ℝ) : EReal) :=
    v8_coord _ b t k 1
  have c2 : val_main_v8 (F := Ideal) (fun i => ((x i : ℝ) : EReal)) (ix3 (row b t) (2 : Fin 4) k) = ((x (ix3 b t (lane k 2)) : ℝ) : EReal) :=
    v8_coord _ b t k 2
  have c3 := v8_one (fun i => ((x i : ℝ) : EReal)) (row b t) k
  obtain ⟨h0, h1, h2, h3⟩ := v21_at (fun i => ((θ i : ℝ) : EReal)) (row b t)
  rw [val_main_v36_apply, Fin.sum_univ_four, el, el, el, el, er, er, er, er,
    v35_row0, v35_row0, v35_row0, v35_row0, h0, h1, h2, h3, c0, c1, c2, c3, v0_at]
  simp only [one_mul, zero_mul, mul_one, add_zero, zero_add]
  exact (EReal.coe_add _ _).symm
theorem v36_at1 (x : XArr.Idx → ℝ) (θ : PArr.Idx → ℝ) (b : Fin 2048) (t : Fin 300) (k : Fin 25) :
    val_main_v36 (F := Ideal) (fun i => ((x i : ℝ) : EReal)) (fun i => ((θ i : ℝ) : EReal)) (ix3 (row b t) (1 : Fin 3) k)
      = ((x (ix3 b t (lane k 1)) + θ (ix3 b t (shift 1)) : ℝ) : EReal) := by
  have el : ∀ q : Fin 4, lidx_main_v36 (ix3 (row b t) (1 : Fin 3) k) q = ix3 (row b t) (1 : Fin 3) q := fun q => by
    funext a
    match a with
    | ⟨0, _⟩ => rfl
    | ⟨1, _⟩ => rfl
    | ⟨2, _⟩ => rfl
  have er : ∀ q : Fin 4, ridx_main_v36 (ix3 (row b t) (1 : Fin 3) k) q = ix3 (row b t) q k := fun q => by
    funext a
    match a with
    | ⟨0, _⟩ => rfl
    | ⟨1, _⟩ => rfl
    | ⟨2, _⟩ => rfl
  have c0 : val_main_v8 (F := Ideal) (fun i => ((x i : ℝ) : EReal)) (ix3 (row b t) (0 : Fin 4) k) = ((x (ix3 b t (lane k 0)) : ℝ) : EReal) :=
    v8_coord _ b t k 0
  have c1 : val_main_v8 (F := Ideal) (fun i => ((x i : ℝ) : EReal)) (ix3 (row b t) (1 : Fin 4) k) = ((x (ix3 b t (lane k 1)) : ℝ) : EReal) :=
    v8_coord _ b t k 1
  have c2 : val_main_v8 (F := Ideal) (fun i => ((x i : ℝ) : EReal)) (ix3 (row b t) (2 : Fin 4) k) = ((x (ix3 b t (lane k 2)) : ℝ) : EReal) :=
    v8_coord _ b t k 2
  have c3 := v8_one (fun i => ((x i : ℝ) : EReal)) (row b t) k
  obtain ⟨h0, h1, h2, h3⟩ := v26_at (fun i => ((θ i : ℝ) : EReal)) (row b t)
  rw [val_main_v36_apply, Fin.sum_univ_four, el, el, el, el, er, er, er, er,
    v35_row1, v35_row1, v35_row1, v35_row1, h0, h1, h2, h3, c0, c1, c2, c3, v0_at]
  simp only [one_mul, zero_mul, mul_one, add_zero, zero_add]
  exact (EReal.coe_add _ _).symm
theorem v36_at2 (x : XArr.Idx → ℝ) (θ : PArr.Idx → ℝ) (b : Fin 2048) (t : Fin 300) (k : Fin 25) :
    val_main_v36 (F := Ideal) (fun i => ((x i : ℝ) : EReal)) (fun i => ((θ i : ℝ) : EReal)) (ix3 (row b t) (2 : Fin 3) k)
      = ((x (ix3 b t (lane k 2)) + θ (ix3 b t (shift 2)) : ℝ) : EReal) := by
  have el : ∀ q : Fin 4, lidx_main_v36 (ix3 (row b t) (2 : Fin 3) k) q = ix3 (row b t) (2 : Fin 3) q := fun q => by
    funext a
    match a with
    | ⟨0, _⟩ => rfl
    | ⟨1, _⟩ => rfl
    | ⟨2, _⟩ => rfl
  have er : ∀ q : Fin 4, ridx_main_v36 (ix3 (row b t) (2 : Fin 3) k) q = ix3 (row b t) q k := fun q => by
    funext a
    match a with
    | ⟨0, _⟩ => rfl
    | ⟨1, _⟩ => rfl
    | ⟨2, _⟩ => rfl
  have c0 : val_main_v8 (F := Ideal) (fun i => ((x i : ℝ) : EReal)) (ix3 (row b t) (0 : Fin 4) k) = ((x (ix3 b t (lane k 0)) : ℝ) : EReal) :=
    v8_coord _ b t k 0
  have c1 : val_main_v8 (F := Ideal) (fun i => ((x i : ℝ) : EReal)) (ix3 (row b t) (1 : Fin 4) k) = ((x (ix3 b t (lane k 1)) : ℝ) : EReal) :=
    v8_coord _ b t k 1
  have c2 : val_main_v8 (F := Ideal) (fun i => ((x i : ℝ) : EReal)) (ix3 (row b t) (2 : Fin 4) k) = ((x (ix3 b t (lane k 2)) : ℝ) : EReal) :=
    v8_coord _ b t k 2
  have c3 := v8_one (fun i => ((x i : ℝ) : EReal)) (row b t) k
  obtain ⟨h0, h1, h2, h3⟩ := v31_at (fun i => ((θ i : ℝ) : EReal)) (row b t)
  rw [val_main_v36_apply, Fin.sum_univ_four, el, el, el, el, er, er, er, er,
    v35_row2, v35_row2, v35_row2, v35_row2, h0, h1, h2, h3, c0, c1, c2, c3, v0_at]
  simp only [one_mul, zero_mul, mul_one, add_zero, zero_add]
  exact (EReal.coe_add _ _).symm

theorem v36_at (x : XArr.Idx → ℝ) (θ : PArr.Idx → ℝ) (b : Fin 2048) (t : Fin 300) (k : Fin 25) (j : Fin 3) :
    val_main_v36 (F := Ideal) (fun i => ((x i : ℝ) : EReal)) (fun i => ((θ i : ℝ) : EReal)) (ix3 (row b t) j k)
      = ((x (ix3 b t (lane k j)) + θ (ix3 b t (shift j)) : ℝ) : EReal) :=
  match j with
  | ⟨0, _⟩ => v36_at0 x θ b t k
  | ⟨1, _⟩ => v36_at1 x θ b t k
  | ⟨2, _⟩ => v36_at2 x θ b t k

/-- The reference's translation stage at `(b, t)`, lane `3k + j`: coordinate `j` of joint `k` plus its translation, times the
    indicator that the entry is not zero. -/
theorem moved_at (x : XArr.Idx → ℝ) (θ : PArr.Idx → ℝ) (b : Fin 2048) (t : Fin 300) (k : Fin 25) (j : Fin 3) :
    val_main_v39 (F := Ideal) (fun i => ((x i : ℝ) : EReal)) (fun i => ((θ i : ℝ) : EReal)) (ix3 b t (lane k j))
      = ((moved (fun l => x (ix3 b t l)) (fun q => θ (ix3 b t q)) k j : ℝ) : EReal) := by
  have hb := b.isLt; have ht := t.isLt; have hk := k.isLt; have hj := j.isLt
  have e : idx_main_v37 (idx_main_v38 (ix3 b t (lane k j))) = ix3 (row b t) j k := by
    funext a
    match a with
    | ⟨0, _⟩ => exact Fin.ext (by show ((b.val * 300 + t.val) * 75 + (3 * k.val + j.val)) / 75 = 300 * b.val + t.val; omega)
    | ⟨1, _⟩ => exact Fin.ext (by show ((b.val * 300 + t.val) * 75 + (3 * k.val + j.val)) % 3 = j.val; omega)
    | ⟨2, _⟩ => exact Fin.ext (by show ((b.val * 300 + t.val) * 75 + (3 * k.val + j.val)) / 3 % 25 = k.val; omega)
  have h3 : val_main_v3 (F := Ideal) (fun i => ((x i : ℝ) : EReal)) (ix3 b t (lane k j))
      = ((nz (x (ix3 b t (lane k j))) : ℝ) : EReal) := by
    rw [val_main_v3_apply, val_main_v2_apply, val_main_v1_apply, val_main_cst_apply]
    exact Cert.RealCoe.uitofp_une _
  rw [val_main_v39_apply, val_main_v38_apply, val_main_v37_apply, e, v36_at, h3]
  exact (EReal.coe_mul _ _).symm

end Cert.ReferenceIdeal.Moved

end
-- ==== Proof.RefRot.lean ====
/-
  The reference's rotation on real parameters, read at an entry: the product of the three homogeneous 4 × 4 matrices
  `Rz(θ₂) · Ry(θ₀) · Rx(θ₁)` of row `300 b + t` is the homogeneous matrix `rot4` of that row's angles.

  Each factor is built row by row: a row is four one-column pieces side by side (a cosine, a sine, a negated sine, or the
  constants zero and one, each a column over all rows), and the four rows are stacked. So an entry of a factor is read by
  choosing the row in the stack, the column in the row, and then the value of that column at the row `300 b + t`.
  The two products are sums of four terms; all their terms are real, so the sums are taken over the reals, where the
  product of the three factors is `rot4` entry by entry.
-/
import proofs.«427264_j2113123910298_3_alg».proof.Proof.Gen.ReferenceIdeal.Read
import proofs.«427264_j2113123910298_3_alg».proof.Proof.Spec
import proofs.«427264_j2113123910298_3_alg».proof.Proof.LibRealCoe
import Idealize.ShloMosaic.Lib.ValueIdx
import Idealize.ShloMosaic.Lib.Pipeline.Value

noncomputable section

namespace Cert.ReferenceIdeal.Rot

open Cert.ReferenceIdeal Cert.ReferenceIdeal.Read Idealize.ShloMosaic Idealize.ShloMosaic.TcCoe Idealize.ShloMosaic.ValueIdx Cert.Joints

/-- Row `(b, t)` of the arrays is row `300 b + t` of the matrices of rows. -/
def rowOf (b : Fin 2048) (t : Fin 300) : Fin 614400 := ⟨300 * b.val + t.val, by omega⟩

/-- Real parameters, as the extended reals the program reads. -/
abbrev par (θ : PArr.Idx → ℝ) : (⟨S2048x300x6, .f32⟩ : BufTy).Contents (Elt Ideal) := fun i => ((θ i : ℝ) : EReal)

/-! ### The three factors over the reals -/

/-- The homogeneous rotation by `a` about the third axis. -/
def matZ (a : ℝ) : Fin 4 → Fin 4 → ℝ :=
  ![![Real.cos a, -Real.sin a, 0, 0], ![Real.sin a, Real.cos a, 0, 0], ![0, 0, 1, 0], ![0, 0, 0, 1]]

/-- The homogeneous rotation by `a` about the second axis. -/
def matY (a : ℝ) : Fin 4 → Fin 4 → ℝ :=
  ![![Real.cos a, 0, Real.sin a, 0], ![0, 1, 0, 0], ![-Real.sin a, 0, Real.cos a, 0], ![0, 0, 0, 1]]

/-- The homogeneous rotation by `a` about the first axis. -/
def matX (a : ℝ) : Fin 4 → Fin 4 → ℝ :=
  ![![1, 0, 0, 0], ![0, Real.cos a, -Real.sin a, 0], ![0, Real.sin a, Real.cos a, 0], ![0, 0, 0, 1]]

/-- The product of the three factors is the homogeneous rotation of the specification, entry by entry. -/
theorem prod_eq_rot4 (θ : Fin 6 → ℝ) (i j : Fin 4) :
    ∑ k : Fin 4, (∑ m : Fin 4, matZ (θ 2) i m * matY (θ 0) m k) * matX (θ 1) k j = rot4 θ i j := by
  fin_cases i <;> fin_cases j <;> simp [Fin.sum_univ_four, matZ, matY, matX, rot4, rot] <;> ring

/-- A sum of four products of real numbers, taken in the extended reals, is the real sum. -/
theorem coe_dot4 (f g : Fin 4 → ℝ) :
    ∑ k : Fin 4, ((f k : ℝ) : EReal) * ((g k : ℝ) : EReal) = ((∑ k : Fin 4, f k * g k : ℝ) : EReal) := by
  simp only [Fin.sum_univ_four, EReal.coe_mul, EReal.coe_add]

/-! ### Reading the layout: the parameters as rows, side-by-side columns, stacked rows -/

/-- Entry `q` of row `300 b + t` of the parameters as a matrix of rows is entry `(b, t, q)` of the array:
    `(300 b + t) · 6 + q = (b · 300 + t) · 6 + q` with `t < 300` and `q < 6`. -/
theorem v0_at (θ : PArr.Idx → ℝ) (b : Fin 2048) (t : Fin 300) (q : Fin 6) :
    val_main_v0 (F := Ideal) (par θ) (ix2 (rowOf b t) q) = ((θ (ix3 b t q) : ℝ) : EReal) := by
  rw [val_main_v0_apply]
  have h : idx_main_v0 (ix2 (rowOf b t) q) = ix3 b t q := by
    funext a
    match a with
    | ⟨0, _⟩ => exact Fin.ext (by show ((300 * b.val + t.val) * 6 + q.val) / 1800 = b.val; omega)
    | ⟨1, _⟩ => exact Fin.ext (by show ((300 * b.val + t.val) * 6 + q.val) / 6 % 300 = t.val; omega)
    | ⟨2, _⟩ => exact Fin.ext (by show ((300 * b.val + t.val) * 6 + q.val) % 6 = q.val; omega)
  rw [h]

/-- Four one-column pieces side by side, read at column `c`: piece `c`, at the same row. -/
theorem cat4_row {α : Type} (x0 x1 x2 x3 : S614400x1.Idx → α)
    (h : Shape.Concatenates ([(⟨S614400x1, x0⟩ : (s : Shape) × (s.Idx → α)), ⟨S614400x1, x1⟩, ⟨S614400x1, x2⟩, ⟨S614400x1, x3⟩].map (·.1)) S614400x4 1)
    (n : Fin 614400) (c : Fin 4) :
    concatenate S614400x4 1 [⟨S614400x1, x0⟩, ⟨S614400x1, x1⟩, ⟨S614400x1, x2⟩, ⟨S614400x1, x3⟩] h (ix2 n c)
      = (![x0, x1, x2, x3] c) (ix2 n 0) := by
  have hi : ∀ b : Fin S614400x1.rank, b.cast (rfl : S614400x1.rank = S614400x4.rank) ≠ (1 : Fin S614400x4.rank) →
      ((ix2 n (0 : Fin 1) : S614400x1.Idx) b).val = ((ix2 n c : S614400x4.Idx) (b.cast rfl)).val := by
    intro b hb
    match b with
    | ⟨0, _⟩ => rfl
    | ⟨1, _⟩ => exact absurd rfl hb
  fin_cases c
  · exact concatenate_apply_piece (1 : Fin S614400x4.rank) _ h _ 0 (by simp) S614400x1 x0 rfl rfl 0 rfl (ix2 n 0) hi rfl
  · exact concatenate_apply_piece (1 : Fin S614400x4.rank) _ h _ 1 (by simp) S614400x1 x1 rfl rfl 1 rfl (ix2 n 0) hi rfl
  · exact concatenate_apply_piece (1 : Fin S614400x4.rank) _ h _ 2 (by simp) S614400x1 x2 rfl rfl 2 rfl (ix2 n 0) hi rfl
  · exact concatenate_apply_piece (1 : Fin S614400x4.rank) _ h _ 3 (by simp) S614400x1 x3 rfl rfl 3 rfl (ix2 n 0) hi rfl

/-- Four one-row pieces stacked, read at row `r`: piece `r`, at the same row of the arrays and the same column. -/
theorem cat4_stack {α : Type} (x0 x1 x2 x3 : S614400x1x4.Idx → α)
    (h : Shape.Concatenates ([(⟨S614400x1x4, x0⟩ : (s : Shape) × (s.Idx → α)), ⟨S614400x1x4, x1⟩, ⟨S614400x1x4, x2⟩, ⟨S614400x1x4, x3⟩].map (·.1)) S614400x4x4 1)
    (n : Fin 614400) (r c : Fin 4) :
    concatenate S614400x4x4 1 [⟨S614400x1x4, x0⟩, ⟨S614400x1x4, x1⟩, ⟨S614400x1x4, x2⟩, ⟨S614400x1x4, x3⟩] h (ix3 n r c)
      = (![x0, x1, x2, x3] r) (ix3 n 0 c) := by
  have hi : ∀ b : Fin S614400x1x4.rank, b.cast (rfl : S614400x1x4.rank = S614400x4x4.rank) ≠ (1 : Fin S614400x4x4.rank) →
      ((ix3 n (0 : Fin 1) c : S614400x1x4.Idx) b).val = ((ix3 n r c : S614400x4x4.Idx) (b.cast rfl)).val := by
    intro b hb
    match b with
    | ⟨0, _⟩ => rfl
    | ⟨1, _⟩ => exact absurd rfl hb
    | ⟨2, _⟩ => rfl
  fin_cases r
  · exact concatenate_apply_piece (1 : Fin S614400x4x4.rank) _ h _ 0 (by simp) S614400x1x4 x0 rfl rfl 0 rfl (ix3 n 0 c) hi rfl
  · exact concatenate_apply_piece (1 : Fin S614400x4x4.rank) _ h _ 1 (by simp) S614400x1x4 x1 rfl rfl 1 rfl (ix3 n 0 c) hi rfl
  · exact concatenate_apply_piece (1 : Fin S614400x4x4.rank) _ h _ 2 (by simp) S614400x1x4 x2 rfl rfl 2 rfl (ix3 n 0 c) hi rfl
  · exact concatenate_apply_piece (1 : Fin S614400x4x4.rank) _ h _ 3 (by simp) S614400x1x4 x3 rfl rfl 3 rfl (ix3 n 0 c) hi rfl

/-- The only entry of row `n` of a one-column matrix comes from entry `n` of the column. -/
theorem colIdx (n : Fin 614400) : idx_main_v47 (ix2 n (0 : Fin 1)) = ix1 n := by
  funext a; match a with | ⟨0, _⟩ => rfl

/-- Entry `c` of the only row of a one-row stack comes from entry `(n, c)` of the matrix of rows. -/
theorem rowIdx (n : Fin 614400) (c : Fin 4) : idx_main_v67 (ix3 n (0 : Fin 1) c) = ix2 n c := by
  funext a; match a with | ⟨0, _⟩ => rfl | ⟨1, _⟩ => rfl

/-- An entry of a column spread into a one-column matrix, given the column's value at the row. -/
theorem colv {col : S614400x1.Idx → EReal} {src : S614400.Idx → EReal} {n : Fin 614400} {v : ℝ}
    (h : ∀ i, col i = src (idx_main_v47 i)) (hs : src (ix1 n) = ((v : ℝ) : EReal)) :
    col (ix2 n 0) = ((v : ℝ) : EReal) :=
  (h _).trans ((congrArg src (colIdx n)).trans hs)

/-- An entry of a row placed in a one-row stack, given the row's value at the column. -/
theorem rowv {stk : S614400x1x4.Idx → EReal} {src : S614400x4.Idx → EReal} {n : Fin 614400} {c : Fin 4} {v : ℝ}
    (h : ∀ i, stk i = src (idx_main_v67 i)) (hs : src (ix2 n c) = ((v : ℝ) : EReal)) :
    stk (ix3 n 0 c) = ((v : ℝ) : EReal) :=
  (h _).trans ((congrArg src (rowIdx n c)).trans hs)

/-- The left operand of either product at term `k` of entry `(i, j)` is its entry `(i, k)`. -/
theorem lidx_at (n : Fin 614400) (i j k : Fin 4) : lidx_main_v104 (ix3 n i j) k = ix3 n i k := by
  funext a; match a with | ⟨0, _⟩ => rfl | ⟨1, _⟩ => rfl | ⟨2, _⟩ => rfl

/-- The right operand of either product at term `k` of entry `(i, j)` is its entry `(k, j)`. -/
theorem ridx_at (n : Fin 614400) (i j k : Fin 4) : ridx_main_v104 (ix3 n i j) k = ix3 n k j := by
  funext a; match a with | ⟨0, _⟩ => rfl | ⟨1, _⟩ => rfl | ⟨2, _⟩ => rfl

/-! ### The rotation about the third axis, by the third angle -/

/-- The third angle of row `300 b + t`. -/
theorem angZ (θ : PArr.Idx → ℝ) (b : Fin 2048) (t : Fin 300) :
    val_main_v41 (F := Ideal) (par θ) (ix1 (rowOf b t)) = ((θ (ix3 b t 2) : ℝ) : EReal) := by
  rw [val_main_v41_apply, val_main_v40_apply]
  refine Eq.trans (congrArg _ ?_) (v0_at θ b t 2)
  funext a
  match a with
  | ⟨0, _⟩ => exact Fin.ext (by show (300 * b.val + t.val) / 1 = _; simp [rowOf])
  | ⟨1, _⟩ => rfl

/-- Its cosine, sine and negated sine are those of the real angle; the constant columns are zero and one. -/
theorem cosZ (θ : PArr.Idx → ℝ) (b : Fin 2048) (t : Fin 300) :
    val_main_v42 (F := Ideal) (par θ) (ix1 (rowOf b t)) = ((Real.cos (θ (ix3 b t 2)) : ℝ) : EReal) := by
  rw [val_main_v42_apply, angZ, Ideal.hostUnary_cos_def, Cert.RealCoe.cos_coe]

theorem sinZ (θ : PArr.Idx → ℝ) (b : Fin 2048) (t : Fin 300) :
    val_main_v43 (F := Ideal) (par θ) (ix1 (rowOf b t)) = ((Real.sin (θ (ix3 b t 2)) : ℝ) : EReal) := by
  rw [val_main_v43_apply, angZ, Ideal.hostUnary_sin_def, Cert.RealCoe.sin_coe]

theorem nsinZ (θ : PArr.Idx → ℝ) (b : Fin 2048) (t : Fin 300) :
    val_main_v46 (F := Ideal) (par θ) (ix1 (rowOf b t)) = ((-Real.sin (θ (ix3 b t 2)) : ℝ) : EReal) := by
  rw [val_main_v46_apply, sinZ, Ideal.hostNegf_def, Ideal.negf_def, EReal.coe_neg]

theorem zeroZ (i : S614400.Idx) : val_main_v44 (F := Ideal) i = ((0 : ℝ) : EReal) := by
  rw [val_main_v44_apply, val_main_cst_3_apply, Ideal.ofBits_def, Ideal.ofBits_zero_f32]; rfl

theorem oneZ (i : S614400.Idx) : val_main_v45 (F := Ideal) i = ((1 : ℝ) : EReal) := by
  rw [val_main_v45_apply, val_main_cst_4_apply, Ideal.ofBits_def, Ideal.ofBits_one_f32]; rfl

/-- Row 0: `cos, -sin, 0, 0`. -/
theorem rowZ0 (θ : PArr.Idx → ℝ) (b : Fin 2048) (t : Fin 300) (c : Fin 4) :
    val_main_v51 (F := Ideal) (par θ) (ix2 (rowOf b t) c) = ((matZ (θ (ix3 b t 2)) 0 c : ℝ) : EReal) := by
  unfold val_main_v51
  refine (cat4_row _ _ _ _ _ _ _).trans ?_
  fin_cases c
  · exact colv (val_main_v47_apply (F := Ideal) (par θ)) (cosZ θ b t)
  · exact colv (val_main_v48_apply (F := Ideal) (par θ)) (nsinZ θ b t)
  · exact colv (val_main_v49_apply (F := Ideal)) (zeroZ _)
  · exact colv (val_main_v50_apply (F := Ideal)) (zeroZ _)

/-- Row 1: `sin, cos, 0, 0`. -/
theorem rowZ1 (θ : PArr.Idx → ℝ) (b : Fin 2048) (t : Fin 300) (c : Fin 4) :
    val_main_v56 (F := Ideal) (par θ) (ix2 (rowOf b t) c) = ((matZ (θ (ix3 b t 2)) 1 c : ℝ) : EReal) := by
  unfold val_main_v56
  refine (cat4_row _ _ _ _ _ _ _).trans ?_
  fin_cases c
  · exact colv (val_main_v52_apply (F := Ideal) (par θ)) (sinZ θ b t)
  · exact colv (val_main_v53_apply (F := Ideal) (par θ)) (cosZ θ b t)
  · exact colv (val_main_v54_apply (F := Ideal)) (zeroZ _)
  · exact colv (val_main_v55_apply (F := Ideal)) (zeroZ _)

/-- Row 2: `0, 0, 1, 0`. -/
theorem rowZ2 (θ : PArr.Idx → ℝ) (b : Fin 2048) (t : Fin 300) (c : Fin 4) :
    val_main_v61 (F := Ideal) (ix2 (rowOf b t) c) = ((matZ (θ (ix3 b t 2)) 2 c : ℝ) : EReal) := by
  unfold val_main_v61
  refine (cat4_row _ _ _ _ _ _ _).trans ?_
  fin_cases c
  · exact colv (val_main_v57_apply (F := Ideal)) (zeroZ _)
  · exact colv (val_main_v58_apply (F := Ideal)) (zeroZ _)
  · exact colv (val_main_v59_apply (F := Ideal)) (oneZ _)
  · exact colv (val_main_v60_apply (F := Ideal)) (zeroZ _)

/-- Row 3: `0, 0, 0, 1`. -/
theorem rowZ3 (θ : PArr.Idx → ℝ) (b : Fin 2048) (t : Fin 300) (c : Fin 4) :
    val_main_v66 (F := Ideal) (ix2 (rowOf b t) c) = ((matZ (θ (ix3 b t 2)) 3 c : ℝ) : EReal) := by
  unfold val_main_v66
  refine (cat4_row _ _ _ _ _ _ _).trans ?_
  fin_cases c
  · exact colv (val_main_v62_apply (F := Ideal)) (zeroZ _)
  · exact colv (val_main_v63_apply (F := Ideal)) (zeroZ _)
  · exact colv (val_main_v64_apply (F := Ideal)) (zeroZ _)
  · exact colv (val_main_v65_apply (F := Ideal)) (oneZ _)

/-- The first factor of row `300 b + t` is `matZ` of its third angle. -/
theorem matZ_at (θ : PArr.Idx → ℝ) (b : Fin 2048) (t : Fin 300) (i j : Fin 4) :
    val_main_v71 (F := Ideal) (par θ) (ix3 (rowOf b t) i j) = ((matZ (θ (ix3 b t 2)) i j : ℝ) : EReal) := by
  unfold val_main_v71
  refine (cat4_stack _ _ _ _ _ _ _ _).trans ?_
  fin_cases i
  · exact rowv (val_main_v67_apply (F := Ideal) (par θ)) (rowZ0 θ b t j)
  · exact rowv (val_main_v68_apply (F := Ideal) (par θ)) (rowZ1 θ b t j)
  · exact rowv (val_main_v69_apply (F := Ideal)) (rowZ2 θ b t j)
  · exact rowv (val_main_v70_apply (F := Ideal)) (rowZ3 θ b t j)

/-! ### The rotation about the second axis, by the first angle -/

/-- The first angle of row `300 b + t`. -/
theorem angY (θ : PArr.Idx → ℝ) (b : Fin 2048) (t : Fin 300) :
    val_main_v73 (F := Ideal) (par θ) (ix1 (rowOf b t)) = ((θ (ix3 b t 0) : ℝ) : EReal) := by
  rw [val_main_v73_apply, val_main_v72_apply]
  refine Eq.trans (congrArg _ ?_) (v0_at θ b t 0)
  funext a
  match a with
  | ⟨0, _⟩ => exact Fin.ext (by show (300 * b.val + t.val) / 1 = _; simp [rowOf])
  | ⟨1, _⟩ => rfl

theorem cosY (θ : PArr.Idx → ℝ) (b : Fin 2048) (t : Fin 300) :
    val_main_v74 (F := Ideal) (par θ) (ix1 (rowOf b t)) = ((Real.cos (θ (ix3 b t 0)) : ℝ) : EReal) := by
  rw [val_main_v74_apply, angY, Ideal.hostUnary_cos_def, Cert.RealCoe.cos_coe]

theorem sinY (θ : PArr.Idx → ℝ) (b : Fin 2048) (t : Fin 300) :
    val_main_v75 (F := Ideal) (par θ) (ix1 (rowOf b t)) = ((Real.sin (θ (ix3 b t 0)) : ℝ) : EReal) := by
  rw [val_main_v75_apply, angY, Ideal.hostUnary_sin_def, Cert.RealCoe.sin_coe]

theorem nsinY (θ : PArr.Idx → ℝ) (b : Fin 2048) (t : Fin 300) :
    val_main_v88 (F := Ideal) (par θ) (ix1 (rowOf b t)) = ((-Real.sin (θ (ix3 b t 0)) : ℝ) : EReal) := by
  rw [val_main_v88_apply, sinY, Ideal.hostNegf_def, Ideal.negf_def, EReal.coe_neg]

theorem zeroY (i : S614400.Idx) : val_main_v76 (F := Ideal) i = ((0 : ℝ) : EReal) := by
  rw [val_main_v76_apply, val_main_cst_5_apply, Ideal.ofBits_def, Ideal.ofBits_zero_f32]; rfl

theorem oneY (i : S614400.Idx) : val_main_v77 (F := Ideal) i = ((1 : ℝ) : EReal) := by
  rw [val_main_v77_apply, val_main_cst_6_apply, Ideal.ofBits_def, Ideal.ofBits_one_f32]; rfl

/-- Row 0: `cos, 0, sin, 0`. -/
theorem rowY0 (θ : PArr.Idx → ℝ) (b : Fin 2048) (t : Fin 300) (c : Fin 4) :
    val_main_v82 (F := Ideal) (par θ) (ix2 (rowOf b t) c) = ((matY (θ (ix3 b t 0)) 0 c : ℝ) : EReal) := by
  unfold val_main_v82
  refine (cat4_row _ _ _ _ _ _ _).trans ?_
  fin_cases c
  · exact colv (val_main_v78_apply (F := Ideal) (par θ)) (cosY θ b t)
  · exact colv (val_main_v79_apply (F := Ideal)) (zeroY _)
  · exact colv (val_main_v80_apply (F := Ideal) (par θ)) (sinY θ b t)
  · exact colv (val_main_v81_apply (F := Ideal)) (zeroY _)

/-- Row 1: `0, 1, 0, 0`. -/
theorem rowY1 (θ : PArr.Idx → ℝ) (b : Fin 2048) (t : Fin 300) (c : Fin 4) :
    val_main_v87 (F := Ideal) (ix2 (rowOf b t) c) = ((matY (θ (ix3 b t 0)) 1 c : ℝ) : EReal) := by
  unfold val_main_v87
  refine (cat4_row _ _ _ _ _ _ _).trans ?_
  fin_cases c
  · exact colv (val_main_v83_apply (F := Ideal)) (zeroY _)
  · exact colv (val_main_v84_apply (F := Ideal)) (oneY _)
  · exact colv (val_main_v85_apply (F := Ideal)) (zeroY _)
  · exact colv (val_main_v86_apply (F := Ideal)) (zeroY _)

/-- Row 2: `-sin, 0, cos, 0`. -/
theorem rowY2 (θ : PArr.Idx → ℝ) (b : Fin 2048) (t : Fin 300) (c : Fin 4) :
    val_main_v93 (F := Ideal) (par θ) (ix2 (rowOf b t) c) = ((matY (θ (ix3 b t 0)) 2 c : ℝ) : EReal) := by
  unfold val_main_v93
  refine (cat4_row _ _ _ _ _ _ _).trans ?_
  fin_cases c
  · exact colv (val_main_v89_apply (F := Ideal) (par θ)) (nsinY θ b t)
  · exact colv (val_main_v90_apply (F := Ideal)) (zeroY _)
  · exact colv (val_main_v91_apply (F := Ideal) (par θ)) (cosY θ b t)
  · exact colv (val_main_v92_apply (F := Ideal)) (zeroY _)

/-- Row 3: `0, 0, 0, 1`. -/
theorem rowY3 (θ : PArr.Idx → ℝ) (b : Fin 2048) (t : Fin 300) (c : Fin 4) :
    val_main_v98 (F := Ideal) (ix2 (rowOf b t) c) = ((matY (θ (ix3 b t 0)) 3 c : ℝ) : EReal) := by
  unfold val_main_v98
  refine (cat4_row _ _ _ _ _ _ _).trans ?_
  fin_cases c
  · exact colv (val_main_v94_apply (F := Ideal)) (zeroY _)
  · exact colv (val_main_v95_apply (F := Ideal)) (zeroY _)
  · exact colv (val_main_v96_apply (F := Ideal)) (zeroY _)
  · exact colv (val_main_v97_apply (F := Ideal)) (oneY _)

/-- The second factor of row `300 b + t` is `matY` of its first angle. -/
theorem matY_at (θ : PArr.Idx → ℝ) (b : Fin 2048) (t : Fin 300) (i j : Fin 4) :
    val_main_v103 (F := Ideal) (par θ) (ix3 (rowOf b t) i j) = ((matY (θ (ix3 b t 0)) i j : ℝ) : EReal) := by
  unfold val_main_v103
  refine (cat4_stack _ _ _ _ _ _ _ _).trans ?_
  fin_cases i
  · exact rowv (val_main_v99_apply (F := Ideal) (par θ)) (rowY0 θ b t j)
  · exact rowv (val_main_v100_apply (F := Ideal)) (rowY1 θ b t j)
  · exact rowv (val_main_v101_apply (F := Ideal) (par θ)) (rowY2 θ b t j)
  · exact rowv (val_main_v102_apply (F := Ideal)) (rowY3 θ b t j)

/-! ### The rotation about the first axis, by the second angle -/

/-- The second angle of row `300 b + t`. -/
theorem angX (θ : PArr.Idx → ℝ) (b : Fin 2048) (t : Fin 300) :
    val_main_v106 (F := Ideal) (par θ) (ix1 (rowOf b t)) = ((θ (ix3 b t 1) : ℝ) : EReal) := by
  rw [val_main_v106_apply, val_main_v105_apply]
  refine Eq.trans (congrArg _ ?_) (v0_at θ b t 1)
  funext a
  match a with
  | ⟨0, _⟩ => exact Fin.ext (by show (300 * b.val + t.val) / 1 = _; simp [rowOf])
  | ⟨1, _⟩ => rfl

theorem cosX (θ : PArr.Idx → ℝ) (b : Fin 2048) (t : Fin 300) :
    val_main_v107 (F := Ideal) (par θ) (ix1 (rowOf b t)) = ((Real.cos (θ (ix3 b t 1)) : ℝ) : EReal) := by
  rw [val_main_v107_apply, angX, Ideal.hostUnary_cos_def, Cert.RealCoe.cos_coe]

theorem sinX (θ : PArr.Idx → ℝ) (b : Fin 2048) (t : Fin 300) :
    val_main_v108 (F := Ideal) (par θ) (ix1 (rowOf b t)) = ((Real.sin (θ (ix3 b t 1)) : ℝ) : EReal) := by
  rw [val_main_v108_apply, angX, Ideal.hostUnary_sin_def, Cert.RealCoe.sin_coe]

theorem nsinX (θ : PArr.Idx → ℝ) (b : Fin 2048) (t : Fin 300) :
    val_main_v116 (F := Ideal) (par θ) (ix1 (rowOf b t)) = ((-Real.sin (θ (ix3 b t 1)) : ℝ) : EReal) := by
  rw [val_main_v116_apply, sinX, Ideal.hostNegf_def, Ideal.negf_def, EReal.coe_neg]

theorem zeroX (i : S614400.Idx) : val_main_v109 (F := Ideal) i = ((0 : ℝ) : EReal) := by
  rw [val_main_v109_apply, val_main_cst_7_apply, Ideal.ofBits_def, Ideal.ofBits_zero_f32]; rfl

theorem oneX (i : S614400.Idx) : val_main_v110 (F := Ideal) i = ((1 : ℝ) : EReal) := by
  rw [val_main_v110_apply, val_main_cst_8_apply, Ideal.ofBits_def, Ideal.ofBits_one_f32]; rfl

/-- Row 0: `1, 0, 0, 0`. -/
theorem rowX0 (θ : PArr.Idx → ℝ) (b : Fin 2048) (t : Fin 300) (c : Fin 4) :
    val_main_v115 (F := Ideal) (ix2 (rowOf b t) c) = ((matX (θ (ix3 b t 1)) 0 c : ℝ) : EReal) := by
  unfold val_main_v115
  refine (cat4_row _ _ _ _ _ _ _).trans ?_
  fin_cases c
  · exact colv (val_main_v111_apply (F := Ideal)) (oneX _)
  · exact colv (val_main_v112_apply (F := Ideal)) (zeroX _)
  · exact colv (val_main_v113_apply (F := Ideal)) (zeroX _)
  · exact colv (val_main_v114_apply (F := Ideal)) (zeroX _)

/-- Row 1: `0, cos, -sin, 0`. -/
theorem rowX1 (θ : PArr.Idx → ℝ) (b : Fin 2048) (t : Fin 300) (c : Fin 4) :
    val_main_v121 (F := Ideal) (par θ) (ix2 (rowOf b t) c) = ((matX (θ (ix3 b t 1)) 1 c : ℝ) : EReal) := by
  unfold val_main_v121
  refine (cat4_row _ _ _ _ _ _ _).trans ?_
  fin_cases c
  · exact colv (val_main_v117_apply (F := Ideal)) (zeroX _)
  · exact colv (val_main_v118_apply (F := Ideal) (par θ)) (cosX θ b t)
  · exact colv (val_main_v119_apply (F := Ideal) (par θ)) (nsinX θ b t)
  · exact colv (val_main_v120_apply (F := Ideal)) (zeroX _)

/-- Row 2: `0, sin, cos, 0`. -/
theorem rowX2 (θ : PArr.Idx → ℝ) (b : Fin 2048) (t : Fin 300) (c : Fin 4) :
    val_main_v126 (F := Ideal) (par θ) (ix2 (rowOf b t) c) = ((matX (θ (ix3 b t 1)) 2 c : ℝ) : EReal) := by
  unfold val_main_v126
  refine (cat4_row _ _ _ _ _ _ _).trans ?_
  fin_cases c
  · exact colv (val_main_v122_apply (F := Ideal)) (zeroX _)
  · exact colv (val_main_v123_apply (F := Ideal) (par θ)) (sinX θ b t)
  · exact colv (val_main_v124_apply (F := Ideal) (par θ)) (cosX θ b t)
  · exact colv (val_main_v125_apply (F := Ideal)) (zeroX _)

/-- Row 3: `0, 0, 0, 1`. -/
theorem rowX3 (θ : PArr.Idx → ℝ) (b : Fin 2048) (t : Fin 300) (c : Fin 4) :
    val_main_v131 (F := Ideal) (ix2 (rowOf b t) c) = ((matX (θ (ix3 b t 1)) 3 c : ℝ) : EReal) := by
  unfold val_main_v131
  refine (cat4_row _ _ _ _ _ _ _).trans ?_
  fin_cases c
  · exact colv (val_main_v127_apply (F := Ideal)) (zeroX _)
  · exact colv (val_main_v128_apply (F := Ideal)) (zeroX _)
  · exact colv (val_main_v129_apply (F := Ideal)) (zeroX _)
  · exact colv (val_main_v130_apply (F := Ideal)) (oneX _)

/-- The third factor of row `300 b + t` is `matX` of its second angle. -/
theorem matX_at (θ : PArr.Idx → ℝ) (b : Fin 2048) (t : Fin 300) (i j : Fin 4) :
    val_main_v136 (F := Ideal) (par θ) (ix3 (rowOf b t) i j) = ((matX (θ (ix3 b t 1)) i j : ℝ) : EReal) := by
  unfold val_main_v136
  refine (cat4_stack _ _ _ _ _ _ _ _).trans ?_
  fin_cases i
  · exact rowv (val_main_v132_apply (F := Ideal)) (rowX0 θ b t j)
  · exact rowv (val_main_v133_apply (F := Ideal) (par θ)) (rowX1 θ b t j)
  · exact rowv (val_main_v134_apply (F := Ideal) (par θ)) (rowX2 θ b t j)
  · exact rowv (val_main_v135_apply (F := Ideal)) (rowX3 θ b t j)

/-! ### The two products -/

/-- The product of the first two factors, entry `(i, j)`: the real sum over `k` of `matZ i k · matY k j`. -/
theorem matZY_at (θ : PArr.Idx → ℝ) (b : Fin 2048) (t : Fin 300) (i j : Fin 4) :
    val_main_v104 (F := Ideal) (par θ) (ix3 (rowOf b t) i j)
      = ((∑ k : Fin 4, matZ (θ (ix3 b t 2)) i k * matY (θ (ix3 b t 0)) k j : ℝ) : EReal) := by
  rw [val_main_v104_apply]
  refine Eq.trans (Finset.sum_congr rfl fun k _ => ?_)
    (coe_dot4 (fun k => matZ (θ (ix3 b t 2)) i k) (fun k => matY (θ (ix3 b t 0)) k j))
  exact congr (congrArg HMul.hMul ((congrArg _ (lidx_at _ i j k)).trans (matZ_at θ b t i k)))
    ((congrArg _ (ridx_at _ i j k)).trans (matY_at θ b t k j))

theorem rot_at (θ : PArr.Idx → ℝ) (b : Fin 2048) (t : Fin 300) (i j : Fin 4) :
    val_main_v137 (F := Ideal) (fun i => ((θ i : ℝ) : EReal)) (ix3 (rowOf b t) i j)
      = ((rot4 (fun q => θ (ix3 b t q)) i j : ℝ) : EReal) := by
  show val_main_v137 (F := Ideal) (par θ) (ix3 (rowOf b t) i j) = _
  rw [val_main_v137_apply]
  refine Eq.trans (Finset.sum_congr rfl fun k _ => ?_)
    ((coe_dot4 (fun k => ∑ m : Fin 4, matZ (θ (ix3 b t 2)) i m * matY (θ (ix3 b t 0)) m k) (fun k => matX (θ (ix3 b t 1)) k j)).trans
      (congrArg _ (prod_eq_rot4 (fun q => θ (ix3 b t q)) i j)))
  exact congr (congrArg HMul.hMul ((congrArg _ (lidx_at _ i j k)).trans (matZY_at θ b t i k)))
    ((congrArg _ (ridx_at _ i j k)).trans (matX_at θ b t k j))

end Cert.ReferenceIdeal.Rot

end
-- ==== Proof.RefOut.lean ====
/-
  The reference's result on real inputs: every row of the result array is `jointOut` of the same row of the arguments.

  The last stage multiplies, row by row, the homogeneous rotation `[R 0; 0 1]` with the 4 × 25 matrix whose first three
  rows are the three moved coordinates of the 25 joints and whose last row is all ones, and keeps the first three rows of
  the product. Row `i < 3` of the rotation has a zero in its last place, so entry `(i, k)` of the product is
  `∑ j < 3, R i j · moved k j`, which is `jointOut` at joint `k`, coordinate `i`. The layout steps around the product
  only rename positions: lane `l` of row `(b, t)` is joint `l / 3`, coordinate `l % 3` of row `300 b + t`.
-/
import proofs.«427264_j2113123910298_3_alg».proof.Proof.Gen.ReferenceIdeal.Read
import proofs.«427264_j2113123910298_3_alg».proof.Proof.Spec
import proofs.«427264_j2113123910298_3_alg».proof.Proof.LibRealCoe
import proofs.«427264_j2113123910298_3_alg».proof.Proof.RefMoved
import proofs.«427264_j2113123910298_3_alg».proof.Proof.RefRot
import Idealize.ShloMosaic.Lib.ValueIdx
import Idealize.ShloMosaic.Lib.Pipeline.Value

noncomputable section

namespace Cert.ReferenceIdeal.Out

open Cert.ReferenceIdeal Cert.ReferenceIdeal.Read Idealize.ShloMosaic Idealize.ShloMosaic.TcCoe Idealize.ShloMosaic.ValueIdx Cert.Joints
open Cert.ReferenceIdeal.Gen Cert.ReferenceIdeal.Moved Cert.ReferenceIdeal.Rot

/-- Swapping the last two axes: position `(n, q, k)` of the 3 × 25 layout is position `(n, k, q)` of the 25 × 3 one. -/
theorem idx140 (n : Fin 614400) (q : Fin 3) (k : Fin 25) : idx_main_v140 (ix3 n q k) = ix3 n k q := by
  funext a
  match a with
  | ⟨0, _⟩ => rfl
  | ⟨1, _⟩ => rfl
  | ⟨2, _⟩ => rfl

/-- Coordinate `q` of joint `k` in row `n` sits on lane `3 k + q` of that row. -/
theorem idx139 (n : Fin 614400) (k : Fin 25) (q : Fin 3) : idx_main_v139 (ix3 n k q) = ix2 n (lane k q) := by
  funext a
  match a with
  | ⟨0, _⟩ => exact Fin.ext (by show ((n.val * 25 + k.val) * 3 + q.val) / 75 = n.val; omega)
  | ⟨1, _⟩ => exact Fin.ext (by show ((n.val * 25 + k.val) * 3 + q.val) % 75 = 3 * k.val + q.val; omega)

/-- Row `300 b + t` of the matrix of rows is row `(b, t)` of the array. -/
theorem idx138 (b : Fin 2048) (t : Fin 300) (l : Fin 75) : idx_main_v138 (ix2 (rowOf b t) l) = ix3 b t l := by
  funext a
  match a with
  | ⟨0, _⟩ => exact Fin.ext (by show ((300 * b.val + t.val) * 75 + l.val) / 22500 = b.val; omega)
  | ⟨1, _⟩ => exact Fin.ext (by show ((300 * b.val + t.val) * 75 + l.val) / 75 % 300 = t.val; omega)
  | ⟨2, _⟩ => exact Fin.ext (by show ((300 * b.val + t.val) * 75 + l.val) % 75 = l.val; omega)

/-- The first three rows of the stacked 4 × 25 matrix of row `300 b + t` hold the moved coordinates of the joints. -/
theorem stack_lt (x : XArr.Idx → ℝ) (θ : PArr.Idx → ℝ) (b : Fin 2048) (t : Fin 300) (q : Fin 4) (hq : q.val < 3)
    (k : Fin 25) :
    val_main_v142 (F := Ideal) (fun i => ((x i : ℝ) : EReal)) (fun i => ((θ i : ℝ) : EReal)) (ix3 (rowOf b t) q k)
      = ((moved (fun l => x (ix3 b t l)) (fun p => θ (ix3 b t p)) k ⟨q.val, hq⟩ : ℝ) : EReal) := by
  unfold val_main_v142
  refine (concatenate_pair_apply_left (t := S614400x4x25) (s₁ := S614400x3x25) (s₂ := S614400x1x25) (1 : Fin 3) _ _
    concatenates_S614400x3x25_S614400x1x25_S614400x4x25_d1
    (ix3 (rowOf b t) q k) rfl (ix3 (rowOf b t) (⟨q.val, hq⟩ : Fin 3) k) (fun a => ?_)).trans ?_
  · match a with
    | ⟨0, _⟩ => rfl
    | ⟨1, _⟩ => rfl
    | ⟨2, _⟩ => rfl
  · rw [val_main_v140_apply, idx140, val_main_v139_apply, idx139, val_main_v138_apply, idx138]
    exact moved_at x θ b t k ⟨q.val, hq⟩

/-- The last row of the stacked 4 × 25 matrix is all ones. -/
theorem stack_top (x : XArr.Idx → ℝ) (θ : PArr.Idx → ℝ) (b : Fin 2048) (t : Fin 300) (k : Fin 25) :
    val_main_v142 (F := Ideal) (fun i => ((x i : ℝ) : EReal)) (fun i => ((θ i : ℝ) : EReal)) (ix3 (rowOf b t) (3 : Fin 4) k)
      = (1 : EReal) := by
  unfold val_main_v142
  refine (concatenate_pair_apply_right (t := S614400x4x25) (s₁ := S614400x3x25) (s₂ := S614400x1x25) (1 : Fin 3) _ _
    concatenates_S614400x3x25_S614400x1x25_S614400x4x25_d1
    (ix3 (rowOf b t) (3 : Fin 4) k) rfl rfl (ix3 (rowOf b t) (0 : Fin 1) k) (fun a ha => ?_) ?_).trans ?_
  · match a, ha with
    | ⟨0, _⟩, _ => rfl
    | ⟨1, _⟩, ha => exact absurd rfl ha
    | ⟨2, _⟩, _ => rfl
  · rfl
  · rw [val_main_v141_apply, val_main_cst_9_apply]
    exact Ideal.ofBits_one_f32

/-- A coordinate index read as an index of the homogeneous matrix. -/
def up (j : Fin 3) : Fin 4 := ⟨j.val, by omega⟩

/-- Lane `l` of row `(b, t)` of the result is read from the product at row `300 b + t`, matrix row `l % 3`, column
    `l / 3`. -/
theorem idxOut (b : Fin 2048) (t : Fin 300) (l : Fin 75) :
    idx_main_v144 (idx_main_v145 (idx_main_v146 (ix3 b t l))) = ix3 (rowOf b t) (up (coordOf l)) (jointOf l) := by
  funext a
  match a with
  | ⟨0, _⟩ => exact Fin.ext (by show ((b.val * 300 + t.val) * 75 + l.val) / 75 = 300 * b.val + t.val; omega)
  | ⟨1, _⟩ => exact Fin.ext (by show ((b.val * 300 + t.val) * 75 + l.val) % 3 = l.val % 3; omega)
  | ⟨2, _⟩ => exact Fin.ext (by show ((b.val * 300 + t.val) * 75 + l.val) / 3 % 25 = l.val / 3; omega)

/-- Entry `(c, k)` of the product pairs row `c` of the left matrix … -/
theorem lidx143 (n : Fin 614400) (c : Fin 4) (k : Fin 25) (q : Fin 4) :
    lidx_main_v143 (ix3 n c k) q = ix3 n c q := by
  funext a
  match a with
  | ⟨0, _⟩ => rfl
  | ⟨1, _⟩ => rfl
  | ⟨2, _⟩ => rfl

/-- … with column `k` of the right one. -/
theorem ridx143 (n : Fin 614400) (c : Fin 4) (k : Fin 25) (q : Fin 4) :
    ridx_main_v143 (ix3 n c k) q = ix3 n q k := by
  funext a
  match a with
  | ⟨0, _⟩ => rfl
  | ⟨1, _⟩ => rfl
  | ⟨2, _⟩ => rfl

/-- The upper-left 3 × 3 block of the homogeneous matrix is the rotation. -/
theorem rot4_lt (θ : Fin 6 → ℝ) (c : Fin 3) (q : Fin 4) (hq : q.val < 3) : rot4 θ (up c) q = rot θ c ⟨q.val, hq⟩ := by
  unfold rot4
  exact dif_pos (show (up c).val < 3 ∧ q.val < 3 from ⟨c.isLt, hq⟩)

/-- The last column of the homogeneous matrix is zero in its first three rows. -/
theorem rot4_top (θ : Fin 6 → ℝ) (c : Fin 3) : rot4 θ (up c) 3 = 0 := by
  unfold rot4
  have h1 : ¬ ((up c).val < 3 ∧ (3 : Fin 4).val < 3) := fun h => absurd h.2 (by decide)
  have h2 : ¬ ((up c).val = (3 : Fin 4).val) := by show ¬ (c.val = 3); omega
  exact (dif_neg h1).trans (if_neg h2)

theorem result_real (x : XArr.Idx → ℝ) (θ : PArr.Idx → ℝ) :
    val_main_v146 (F := Ideal) (fun i => ((x i : ℝ) : EReal)) (fun i => ((θ i : ℝ) : EReal))
      = fun i => ((whole x θ i : ℝ) : EReal) := by
  funext i
  obtain ⟨b, t, l, rfl⟩ : ∃ (b : Fin 2048) (t : Fin 300) (l : Fin 75), i = ix3 b t l := ⟨i 0, i 1, i 2, eq_ix3 i⟩
  show val_main_v146 (F := Ideal) _ _ (ix3 b t l) = ((wholeAt x θ b t l : ℝ) : EReal)
  rw [val_main_v146_apply, val_main_v145_apply, val_main_v144_apply, idxOut, val_main_v143_apply, Fin.sum_univ_four]
  simp only [lidx143, ridx143]
  rw [rot_at, rot_at, rot_at, rot_at, stack_lt x θ b t 0 (by decide) _, stack_lt x θ b t 1 (by decide) _,
    stack_lt x θ b t 2 (by decide) _, stack_top,
    rot4_lt _ _ 0 (by decide), rot4_lt _ _ 1 (by decide), rot4_lt _ _ 2 (by decide), rot4_top]
  unfold wholeAt jointOut
  rw [EReal.coe_add, EReal.coe_add, EReal.coe_mul, EReal.coe_mul, EReal.coe_mul, EReal.coe_zero, zero_mul, add_zero]
  rfl

end Cert.ReferenceIdeal.Out

end
-- ==== Proof.lean ====
/-
  Both programs turn every row of 25 joints by one rotation after one translation, keeping a translated coordinate only
  where the original entry was not zero: the kernel with the rotation's nine entries in closed form and the three
  coordinates of a joint brought to each lane by lane rotations and 0/1 pattern rows, the reference with 4 × 4 homogeneous
  matrices. Under the precondition every input entry is a real number (`Cert.Finite.real_of_pre`), and on real inputs
  each program's result array is the one real array `Cert.Joints.whole` (`Cert.KernelIdeal.Arr.run_real`,
  `Cert.ReferenceIdeal.Out.result_real`), so the results agree entry by entry. The kernel's idealization rewrote no
  operation, so nothing is asked of it beyond its frame.
-/
import proofs.«427264_j2113123910298_3_alg».proof.Defs
import proofs.«427264_j2113123910298_3_alg».proof.Proof.Gen.Kernel
import proofs.«427264_j2113123910298_3_alg».proof.Proof.Gen.Kernel.Skeleton
import proofs.«427264_j2113123910298_3_alg».proof.Proof.Gen.Kernel.Launch
import proofs.«427264_j2113123910298_3_alg».proof.Proof.Gen.Kernel.Points
import proofs.«427264_j2113123910298_3_alg».proof.Proof.Gen.Kernel.Frame
import proofs.«427264_j2113123910298_3_alg».proof.Proof.Gen.KernelIdeal
import proofs.«427264_j2113123910298_3_alg».proof.Proof.Gen.KernelIdeal.Skeleton
import proofs.«427264_j2113123910298_3_alg».proof.Proof.Gen.KernelIdeal.Launch
import proofs.«427264_j2113123910298_3_alg».proof.Proof.Gen.KernelIdeal.Points
import proofs.«427264_j2113123910298_3_alg».proof.Proof.Gen.KernelIdeal.Frame
import proofs.«427264_j2113123910298_3_alg».proof.Proof.Gen.ReferenceIdeal
import proofs.«427264_j2113123910298_3_alg».proof.Proof.Gen.Pre_finite_inputs
import proofs.«427264_j2113123910298_3_alg».proof.Proof.Gen.ReferenceIdeal.Run
import proofs.«427264_j2113123910298_3_alg».proof.Proof.Gen.ReferenceIdeal.Read
import proofs.«427264_j2113123910298_3_alg».proof.Proof.Spec
import proofs.«427264_j2113123910298_3_alg».proof.Proof.Finite
import proofs.«427264_j2113123910298_3_alg».proof.Proof.KernelArr
import proofs.«427264_j2113123910298_3_alg».proof.Proof.RefOut
import Idealize.ShloMosaic.Adequacy
import Idealize.ShloMosaic.Init

noncomputable section

namespace Cert.Proof

open Idealize.ShloMosaic Idealize.SL.Sem Cert.Joints

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the arguments, both programs end with the result array at `whole` of the arguments'
    real entries. -/
theorem algebraic : Cert.algebraic_KernelIdeal_ReferenceIdeal := by
  intro m ρ m' ρ' hpre hagree
  have hx : ∀ c : Dev Cert.KernelIdeal.nD, ∃ x : XArr.Idx → ℝ,
      m ((c.tc : Thread Cert.KernelIdeal.nD Cert.KernelIdeal.τ).loc Cert.KernelIdeal.main_arg0) = fun i => ((x i : ℝ) : EReal) :=
    fun c => (Cert.Finite.real_of_pre _ _ (hpre c)).1
  have hθ : ∀ c : Dev Cert.KernelIdeal.nD, ∃ θ : PArr.Idx → ℝ,
      m ((c.tc : Thread Cert.KernelIdeal.nD Cert.KernelIdeal.τ).loc Cert.KernelIdeal.main_arg1) = fun i => ((θ i : ℝ) : EReal) :=
    fun c => (Cert.Finite.real_of_pre _ _ (hpre c)).2
  choose Xr hXr using hx
  choose Θr hΘr using hθ
  refine ⟨fun c => (fun i => ((whole (Xr c) (Θr c) i : ℝ) : EReal)), Cert.KernelIdeal.Arr.run_real m ρ Xr Θr hXr hΘr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v146_eq, (hagree c).1, (hagree c).2, hXr c, hΘr c]
  exact Cert.ReferenceIdeal.Out.result_real (Xr c) (Θr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
